-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S600000 32) (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S600000 32 := broadcastInDim S600000 ![] bcast_S_S600000 main_c_16
  let main_v45 : IVec S600000 1 := cmpi .sge main_arg1 main_v44
  let main_c_17 : IVec S_ 32 := constantI S_ 32 50000#32
  let main_v46 : IVec S600000 32 := broadcastInDim S600000 ![] bcast_S_S600000 main_c_17
  let main_v47 : IVec S600000 1 := cmpi .slt main_arg1 main_v46
  let main_v48 : IVec S600000 1 := andi main_v45 main_v47
  let main_c_18 : IVec S_ 1 := constantI S_ 1 1#1
  let main_v49 : IVec S_ 1 := (fun x v => Host.reduce IntOp.andi x v reducesTo_S600000_S_d0 h_S_) main_v48 main_c_18
  let main_v50 : IVec S_ 1 := andi main_v43 main_v49
  main_v50

def fn_part1 {F : FTy → Type} [FloatOps F] (main_arg1 : IVec S600000 32) (main_arg6 : FVec F S128 .f32) (main_arg7 : FVec F S256x256 .f32) (main_arg8 : FVec F S256 .f32) (main_arg9 : FVec F S256x128 .f32) (main_arg10 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S600000 32) (main_arg2 : IVec S600000 32) (main_arg3 : FVec F S256x256 .f32) (main_arg4 : FVec F S256 .f32) (main_arg5 : FVec F S256x128 .f32) (main_arg6 : FVec F S128 .f32) (main_arg7 : FVec F S256x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S128x256 : Shape := ⟨2, ![128, 256]⟩
abbrev S1x256 : Shape := ⟨2, ![1, 256]⟩
abbrev S1x128 : Shape := ⟨2, ![1, 128]⟩
abbrev S4000x128 : Shape := ⟨2, ![4000, 128]⟩
abbrev S4000x256 : Shape := ⟨2, ![4000, 256]⟩
abbrev S5000x128 : Shape := ⟨2, ![5000, 128]⟩
abbrev S5000x256 : Shape := ⟨2, ![5000, 256]⟩

abbrev nBuf : Space → Nat
  | .hbm => 77
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S1, .i32⟩
  | .hbm, ⟨20, _⟩ => ⟨S_, .i32⟩
  | .hbm, ⟨21, _⟩ => ⟨S600000x1, .i32⟩
  | .hbm, ⟨22, _⟩ => ⟨S600000x1, .i1⟩
  | .hbm, ⟨23, _⟩ => ⟨S1x1, .i32⟩
  | .hbm, ⟨24, _⟩ => ⟨S600000x1, .i32⟩
  | .hbm, ⟨25, _⟩ => ⟨S600000x1, .i1⟩
  | .hbm, ⟨26, _⟩ => ⟨S600000x1, .i1⟩
  | .hbm, ⟨27, _⟩ => ⟨S_, .i1⟩
  | .hbm, ⟨28, _⟩ => ⟨S600000, .i1⟩
  | .hbm, ⟨29, _⟩ => ⟨S600000x128, .f32⟩
  | .hbm, ⟨30, _⟩ => ⟨S600000x128, .i1⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S1, .i32⟩
  | .hbm, ⟨43, _⟩ => ⟨S_, .i32⟩
  | .hbm, ⟨44, _⟩ => ⟨S600000x1, .i32⟩
  | .hbm, ⟨45, _⟩ => ⟨S600000x1, .i1⟩
  | .hbm, ⟨46, _⟩ => ⟨S1x1, .i32⟩
  | .hbm, ⟨47, _⟩ => ⟨S600000x1, .i32⟩
  | .hbm, ⟨48, _⟩ => ⟨S600000x1, .i1⟩
  | .hbm, ⟨49, _⟩ => ⟨S600000x1, .i1⟩
  | .hbm, ⟨50, _⟩ => ⟨S_, .i1⟩
  | .hbm, ⟨51, _⟩ => ⟨S600000, .i1⟩
  | .hbm, ⟨52, _⟩ => ⟨S600000x128, .f32⟩
  | .hbm, ⟨53, _⟩ => ⟨S600000x128, .i1⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S128x256, .f32⟩
  | .hbm, ⟨58, _⟩ => ⟨S128x256, .bf16⟩
  | .hbm, ⟨59, _⟩ => ⟨S128x256, .f32⟩
  | .hbm, ⟨60, _⟩ => ⟨S128x256, .bf16⟩
  | .hbm, ⟨61, _⟩ => ⟨S256x128, .bf16⟩
  | .hbm, ⟨62, _⟩ => ⟨S1x256, .f32⟩
  | .hbm, ⟨63, _⟩ => ⟨S1x128, .f32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S128x256, .f32⟩
  | .hbm, ⟨70, _⟩ => ⟨S128x256, .bf16⟩
  | .hbm, ⟨71, _⟩ => ⟨S128x256, .f32⟩
  | .hbm, ⟨72, _⟩ => ⟨S128x256, .bf16⟩
  | .hbm, ⟨73, _⟩ => ⟨S256x128, .bf16⟩
  | .hbm, ⟨74, _⟩ => ⟨S1x256, .f32⟩
  | .hbm, ⟨75, _⟩ => ⟨S1x128, .f32⟩
  | .hbm, ⟨76, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x256, .bf16⟩
  | .local _ .vmem, ⟨16, _⟩ => ⟨S128x256, .bf16⟩
  | .local _ .vmem, ⟨17, _⟩ => ⟨S1x256, .f32⟩
  | .local _ .vmem, ⟨18, _⟩ => ⟨S256x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_cst : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S256x256_S128x256_0_0 : S256x256.Slices ![0, 0] S128x256
  bitsLt_bf16_f32 : FTy.bits .bf16 < FTy.bits .f32
  slices_S256x256_S128x256_128_0 : S256x256.Slices ![128, 0] S128x256
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x256_S5000x256 : S1x256.Broadcasts S5000x256
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .f32 = 32 ∨ (Rect.block (s := S600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .f32 = 32 ∨ (Rect.block (s := S600000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S600000x128.size a
  hwx0_7 : ∀ i : grid0.Coords, EltTy.bits .f32 = 32 ∨ (Rect.block (s := S600000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x256, .f32⟩
  | .hbm, ⟨30, _⟩ => ⟨S600000x256, .f32⟩
  | .hbm, ⟨31, _⟩ => ⟨S1x256, .f32⟩
  | .hbm, ⟨32, _⟩ => ⟨S600000x256, .f32⟩
  | .hbm, ⟨33, _⟩ => ⟨S600000x256, .f32⟩
  | .hbm, ⟨34, _⟩ => ⟨S_, .f32⟩
  | .hbm, ⟨35, _⟩ => ⟨S600000x256, .f32⟩
  | .hbm, ⟨36, _⟩ => ⟨S600000x256, .f32⟩
  | .hbm, ⟨37, _⟩ => ⟨S600000x128, .f32⟩
  | .hbm, ⟨38, _⟩ => ⟨S1x128, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S50000x256, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call3_cst : Ref sig .tc := ⟨.hbm, 60, rfl⟩
abbrev main_call3_v0 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x256_S600000x256_1_0_0_1_n_n_wf : DotDims.WF S600000x256 S256x256 S600000x256 [1] [0] [0] [1] [] []
  dot_S600000x256_S256x128_S600000x128_1_0_0_1_n_n_wf : DotDims.WF S600000x256 S256x128 S600000x128 [1] [0] [0] [1] [] []
  scatter_S50000x128_S600000x1_S600000x128_1_0_0_1_wf : ScatterDims.WF S50000x128 S600000x1 S600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x256_S600000x256_1_0_0_1_n_n : DotDims S600000x256 S256x256 S600000x256 where
  lhsContracting := [1]
  rhsContracting := [0]
  lhsNonContracting := [0]
  rhsNonContracting := [1]
  lhsBatch := []
  rhsBatch := []
  wf := dot_S600000x256_S256x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelPay.lean ====
/-
  The two kernel bodies' stored values read at one element, over the extended reals: format changes are the identity, a
  matrix product into a zero accumulator is the sum over the contracted axis, ReLU is the maximum with 0.

  Each of the four matrix products is read the same way: the operand indices at output entry (p, c) and contraction
  coordinate k are (p, k) on the left and (k, c) on the right, one axis at a time; the contraction index set is carried
  to its one coordinate's range, and the sum re-indexed along that bijection.
-/
import proofs.«421214_j81492709474574_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## The message kernel's two products -/

/-! ### The product of a [4000, 128] by a [128, 256] matrix -/

theorem lhs_m1_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_m1_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_m1_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_m1_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- Into a zero accumulator the product's entry (p, c) is the sum over the contracted axis of row p times column c. -/
theorem mm_m1 (x : FVec Ideal S4000x128 .bf16) (w : FVec Ideal S128x256 .bf16) (p : Fin 4000) (c : Fin 256) :
    matmul dot_S4000x128_S128x256_S4000x256_1_0_0_1_n_n none x w (constant (F := Ideal) S4000x256 .f32 0x00000000#32) (ix2 p c)
      = ∑ k : Fin 128, x (ix2 p k) * w (ix2 k c) := by
  refine (Ideal.matmul_constant_zero_apply dot_S4000x128_S128x256_S4000x256_1_0_0_1_n_n none x w (ix2 p c)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p c) ((contrEquiv1 dot_S4000x128_S128x256_S4000x256_1_0_0_1_n_n 128 rfl rfl).symm k) = ix2 p k := funext fun a => Fin.ext (by
    match a with
    | ⟨0, _⟩ => exact lhs_m1_0 _ _
    | ⟨1, _⟩ => exact (lhs_m1_1 _ _).trans hk)
  have er : dot_S4000x128_S128x256_S4000x256_1_0_0_1_n_n.rhsIdx (ix2 p c) ((contrEquiv1 dot_S4000x128_S128x256_S4000x256_1_0_0_1_n_n 128 rfl rfl).symm k) = ix2 k c := funext fun a => Fin.ext (by
    match a with
    | ⟨0, _⟩ => exact (rhs_m1_0 _ _).trans hk
    | ⟨1, _⟩ => exact rhs_m1_1 _ _)
  rw [el, er]

/-! ### The product of a [4000, 256] by a [256, 128] matrix -/

theorem lhs_m2_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_m2_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_m2_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_m2_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Into a zero accumulator the product's entry (p, c) is the sum over the contracted axis of row p times column c. -/
theorem mm_m2 (x : FVec Ideal S4000x256 .bf16) (w : FVec Ideal S256x128 .bf16) (p : Fin 4000) (c : Fin 128) :
    matmul dot_S4000x256_S256x128_S4000x128_1_0_0_1_n_n none x w (constant (F := Ideal) S4000x128 .f32 0x00000000#32) (ix2 p c)
      = ∑ k : Fin 256, x (ix2 p k) * w (ix2 k c) := by
  refine (Ideal.matmul_constant_zero_apply dot_S4000x256_S256x128_S4000x128_1_0_0_1_n_n none x w (ix2 p c)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p c) ((contrEquiv1 dot_S4000x256_S256x128_S4000x128_1_0_0_1_n_n 256 rfl rfl).symm k) = ix2 p k := funext fun a => Fin.ext (by
    match a with
    | ⟨0, _⟩ => exact lhs_m2_0 _ _
    | ⟨1, _⟩ => exact (lhs_m2_1 _ _).trans hk)
  have er : dot_S4000x256_S256x128_S4000x128_1_0_0_1_n_n.rhsIdx (ix2 p c) ((contrEquiv1 dot_S4000x256_S256x128_S4000x128_1_0_0_1_n_n 256 rfl rfl).symm k) = ix2 k c := funext fun a => Fin.ext (by
    match a with
    | ⟨0, _⟩ => exact (rhs_m2_0 _ _).trans hk
    | ⟨1, _⟩ => exact rhs_m2_1 _ _)
  rw [el, er]

/-! ## The update kernel's two products -/

/-! ### The product of a [5000, 128] by a [128, 256] matrix -/

theorem lhs_m3_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_m3_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_m3_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_m3_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Into a zero accumulator the product's entry (p, c) is the sum over the contracted axis of row p times column c. -/
theorem mm_m3 (x : FVec Ideal S5000x128 .bf16) (w : FVec Ideal S128x256 .bf16) (p : Fin 5000) (c : Fin 256) :
    matmul dot_S5000x128_S128x256_S5000x256_1_0_0_1_n_n none x w (constant (F := Ideal) S5000x256 .f32 0x00000000#32) (ix2 p c)
      = ∑ k : Fin 128, x (ix2 p k) * w (ix2 k c) := by
  refine (Ideal.matmul_constant_zero_apply dot_S5000x128_S128x256_S5000x256_1_0_0_1_n_n none x w (ix2 p c)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p c) ((contrEquiv1 dot_S5000x128_S128x256_S5000x256_1_0_0_1_n_n 128 rfl rfl).symm k) = ix2 p k := funext fun a => Fin.ext (by
    match a with
    | ⟨0, _⟩ => exact lhs_m3_0 _ _
    | ⟨1, _⟩ => exact (lhs_m3_1 _ _).trans hk)
  have er : dot_S5000x128_S128x256_S5000x256_1_0_0_1_n_n.rhsIdx (ix2 p c) ((contrEquiv1 dot_S5000x128_S128x256_S5000x256_1_0_0_1_n_n 128 rfl rfl).symm k) = ix2 k c := funext fun a => Fin.ext (by
    match a with
    | ⟨0, _⟩ => exact (rhs_m3_0 _ _).trans hk
    | ⟨1, _⟩ => exact rhs_m3_1 _ _)
  rw [el, er]

/-! ### The product of a [5000, 256] by a [256, 128] matrix -/

theorem lhs_m4_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_m4_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_m4_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_m4_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Into a zero accumulator the product's entry (p, c) is the sum over the contracted axis of row p times column c. -/
theorem mm_m4 (x : FVec Ideal S5000x256 .bf16) (w : FVec Ideal S256x128 .bf16) (p : Fin 5000) (c : Fin 128) :
    matmul dot_S5000x256_S256x128_S5000x128_1_0_0_1_n_n none x w (constant (F := Ideal) S5000x128 .f32 0x00000000#32) (ix2 p c)
      = ∑ k : Fin 256, x (ix2 p k) * w (ix2 k c) := by
  refine (Ideal.matmul_constant_zero_apply dot_S5000x256_S256x128_S5000x128_1_0_0_1_n_n none x w (ix2 p c)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p c) ((contrEquiv1 dot_S5000x256_S256x128_S5000x128_1_0_0_1_n_n 256 rfl rfl).symm k) = ix2 p k := funext fun a => Fin.ext (by
    match a with
    | ⟨0, _⟩ => exact lhs_m4_0 _ _
    | ⟨1, _⟩ => exact (lhs_m4_1 _ _).trans hk)
  have er : dot_S5000x256_S256x128_S5000x128_1_0_0_1_n_n.rhsIdx (ix2 p c) ((contrEquiv1 dot_S5000x256_S256x128_S5000x128_1_0_0_1_n_n 256 rfl rfl).symm k) = ix2 k c := funext fun a => Fin.ext (by
    match a with
    | ⟨0, _⟩ => exact (rhs_m4_0 _ _).trans hk
    | ⟨1, _⟩ => exact rhs_m4_1 _ _)
  rw [el, er]

/-- The f32 word 0 read as an extended real is 0. -/
theorem zero_f32 : (Scalar.ofBits .f32 0x00000000#32 : Ideal .f32) = 0 := Ideal.ofBits_zero_f32

/-! ## The stored values -/

/-- The message kernel's stored block at (p, q). -/
theorem pay0_apply (x0 x1 : Vec Ideal S4000x128 .f32) (x2 x3 : Vec Ideal S128x256 .bf16) (x4 : Vec Ideal S1x256 .f32)
    (x5 : Vec Ideal S256x128 .bf16) (x6 : Vec Ideal S1x128 .f32) (p : Fin 4000) (q : Fin 128) :
    k0_pay1 x0 x1 x2 x3 x4 x5 x6 (ix2 p q)
      = max ((∑ k : Fin 256, max ((∑ k' : Fin 128, x0 (ix2 p k') * x2 (ix2 k' k)) + (∑ k' : Fin 128, x1 (ix2 p k') * x3 (ix2 k' k))
            + x4 (ix2 (0 : Fin 1) k)) 0 * x5 (ix2 k q)) + x6 (ix2 (0 : Fin 1) q)) 0 := by
  unfold k0_pay1
  simp only [shapeCast_self, truncf_apply, maximumf_apply, addf_apply, broadcast_apply, broadcastTo_1b_ab_apply,
    mm_m1, mm_m2, zero_f32]

/-- The update kernel's stored block at (p, q): the second operand's own entry plus the perceptron. -/
theorem pay1_apply (x0 x1 : Vec Ideal S5000x128 .f32) (x2 x3 : Vec Ideal S128x256 .bf16) (x4 : Vec Ideal S1x256 .f32)
    (x5 : Vec Ideal S256x128 .bf16) (x6 : Vec Ideal S1x128 .f32) (p : Fin 5000) (q : Fin 128) :
    k1_pay1 x0 x1 x2 x3 x4 x5 x6 (ix2 p q)
      = x1 (ix2 p q) + max ((∑ k : Fin 256, max ((∑ k' : Fin 128, x0 (ix2 p k') * x2 (ix2 k' k)) + (∑ k' : Fin 128, x1 (ix2 p k') * x3 (ix2 k' k))
            + x4 (ix2 (0 : Fin 1) k)) 0 * x5 (ix2 k q)) + x6 (ix2 (0 : Fin 1) q)) 0 := by
  unfold k1_pay1
  simp only [shapeCast_self, truncf_apply, maximumf_apply, addf_apply, broadcast_apply, broadcastTo_1b_ab_apply,
    mm_m3, mm_m4, zero_f32]

end Cert.KernelIdeal.Pay

end
-- ==== Proof.KernelRegions.lean ====
/-
  Each kernel's output array after its grid has run, as ONE function of the arrays the kernel finds on entry.

  The message kernel runs over 150 blocks of 4000 edges, the update kernel over 10 blocks of 5000 nodes. At grid point t
  the two row-blocked operands and the output are at rows [t·B, t·B + B); the weights and biases are whole at every
  point. The stored block is a row-wise function of the loaded blocks, so block t of the output is the restriction to
  those rows of one function of the whole operand arrays; the blocks cover every row (row r is in block r / B), so
  the array after the run is that function.
-/
import proofs.«421214_j81492709474574_1_alg».proof.Proof.Gen.KernelIdeal.Frame
import proofs.«421214_j81492709474574_1_alg».proof.Proof.KernelPay
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The message kernel -/

/-- Its operand arrays on entry, by their literal types. -/
abbrev srcRows (c : Dev nD) : S600000x128.Idx → EReal := V c main_v0
abbrev dstRows (c : Dev nD) : S600000x128.Idx → EReal := V c main_v1
abbrev mW0a (c : Dev nD) : S128x256.Idx → EReal := V c main_v3
abbrev mW0b (c : Dev nD) : S128x256.Idx → EReal := V c main_v5
abbrev mB0 (c : Dev nD) : S1x256.Idx → EReal := V c main_v7
abbrev mW1 (c : Dev nD) : S256x128.Idx → EReal := V c main_v6
abbrev mB1 (c : Dev nD) : S1x128.Idx → EReal := V c main_v8

/-- The perceptron of one row pair against the operand weights, at output column j. -/
def rowFn (a b : Fin 128 → EReal) (wa wb : S128x256.Idx → EReal) (b0 : S1x256.Idx → EReal) (w1 : S256x128.Idx → EReal)
    (b1 : S1x128.Idx → EReal) (j : Fin 128) : EReal :=
  max ((∑ k : Fin 256, max ((∑ k' : Fin 128, a k' * wa (ix2 k' k)) + (∑ k' : Fin 128, b k' * wb (ix2 k' k))
        + b0 (ix2 (0 : Fin 1) k)) 0 * w1 (ix2 k j)) + b1 (ix2 (0 : Fin 1) j)) 0

/-- The messages as one function of the operand arrays. -/
def msgOf (c : Dev nD) : S600000x128.Idx → EReal := fun i =>
  rowFn (fun k' => srcRows V c (ix2 ⟨(i 0).val, idx2_lt0 i⟩ k')) (fun k' => dstRows V c (ix2 ⟨(i 0).val, idx2_lt0 i⟩ k'))
    (mW0a V c) (mW0b V c) (mB0 V c) (mW1 V c) (mB1 V c) ⟨(i 1).val, idx2_lt1 i⟩

/-- The printed index maps over the grid: the row-blocked windows are at block t, the others at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt150 (t : Fin cfg0.N) : t.val < 150 := lt_of_lt_of_eq t.isLt N_0

/-- Row p of block t. -/
abbrev row0 (t : Fin cfg0.N) (p : Fin 4000) : Fin 600000 := ⟨t.val * 4000 + p.val, by have := lt150 t; omega⟩

/-- The source rows' block at point t is the source array at rows t·4000 + p. -/
theorem rd0_0 (c : Dev nD) (t : Fin cfg0.N) (p : Fin 4000) (k' : Fin 128) :
    (iblk0 V c 0 t : S4000x128.Idx → EReal) (ix2 p k') = srcRows V c (ix2 (row0 t p) k') := by
  obtain ⟨e0, e1, -⟩ := idx_facts0 t
  show V c main_v0 (((cfg0.win 0).blk t).view.emb (ix2 p k')) = V c main_v0 (ix2 (row0 t p) k')
  refine congrArg _ ?_
  funext a; apply Fin.ext
  match a with
  | ⟨0, _⟩ => show win0_0.index t (0 : Fin 2) * 4000 + 1 * p.val = t.val * 4000 + p.val; omega
  | ⟨1, _⟩ => show win0_0.index t (1 : Fin 2) * 128 + 1 * k'.val = k'.val; omega

/-- The target rows' block at point t is the target array at rows t·4000 + p. -/
theorem rd0_1 (c : Dev nD) (t : Fin cfg0.N) (p : Fin 4000) (k' : Fin 128) :
    (iblk0 V c 1 t : S4000x128.Idx → EReal) (ix2 p k') = dstRows V c (ix2 (row0 t p) k') := by
  obtain ⟨-, -, e0, e1, -⟩ := idx_facts0 t
  show V c main_v1 (((cfg0.win 1).blk t).view.emb (ix2 p k')) = V c main_v1 (ix2 (row0 t p) k')
  refine congrArg _ ?_
  funext a; apply Fin.ext
  match a with
  | ⟨0, _⟩ => show win0_1.index t (0 : Fin 2) * 4000 + 1 * p.val = t.val * 4000 + p.val; omega
  | ⟨1, _⟩ => show win0_1.index t (1 : Fin 2) * 128 + 1 * k'.val = k'.val; omega

/-- The weights and biases are whole at every point. -/
theorem rd0_2 (c : Dev nD) (t : Fin cfg0.N) (k' : Fin 128) (k : Fin 256) :
    (iblk0 V c 2 t : S128x256.Idx → EReal) (ix2 k' k) = mW0a V c (ix2 k' k) := by
  obtain ⟨-, -, -, -, e0, e1, -⟩ := idx_facts0 t
  show V c main_v3 (((cfg0.win 2).blk t).view.emb (ix2 k' k)) = V c main_v3 (ix2 k' k)
  refine congrArg _ ?_
  funext a; apply Fin.ext
  match a with
  | ⟨0, _⟩ => show win0_2.index t (0 : Fin 2) * 128 + 1 * k'.val = k'.val; omega
  | ⟨1, _⟩ => show win0_2.index t (1 : Fin 2) * 256 + 1 * k.val = k.val; omega
theorem rd0_3 (c : Dev nD) (t : Fin cfg0.N) (k' : Fin 128) (k : Fin 256) :
    (iblk0 V c 3 t : S128x256.Idx → EReal) (ix2 k' k) = mW0b V c (ix2 k' k) := by
  obtain ⟨-, -, -, -, -, -, e0, e1, -⟩ := idx_facts0 t
  show V c main_v5 (((cfg0.win 3).blk t).view.emb (ix2 k' k)) = V c main_v5 (ix2 k' k)
  refine congrArg _ ?_
  funext a; apply Fin.ext
  match a with
  | ⟨0, _⟩ => show win0_3.index t (0 : Fin 2) * 128 + 1 * k'.val = k'.val; omega
  | ⟨1, _⟩ => show win0_3.index t (1 : Fin 2) * 256 + 1 * k.val = k.val; omega
theorem rd0_4 (c : Dev nD) (t : Fin cfg0.N) (z : Fin 1) (k : Fin 256) :
    (iblk0 V c 4 t : S1x256.Idx → EReal) (ix2 z k) = mB0 V c (ix2 z k) := by
  obtain ⟨-, -, -, -, -, -, -, -, e0, e1, -⟩ := idx_facts0 t
  show V c main_v7 (((cfg0.win 4).blk t).view.emb (ix2 z k)) = V c main_v7 (ix2 z k)
  refine congrArg _ ?_
  funext a; apply Fin.ext
  match a with
  | ⟨0, _⟩ => show win0_4.index t (0 : Fin 2) * 1 + 1 * z.val = z.val; omega
  | ⟨1, _⟩ => show win0_4.index t (1 : Fin 2) * 256 + 1 * k.val = k.val; omega
theorem rd0_5 (c : Dev nD) (t : Fin cfg0.N) (k : Fin 256) (j : Fin 128) :
    (iblk0 V c 5 t : S256x128.Idx → EReal) (ix2 k j) = mW1 V c (ix2 k j) := by
  obtain ⟨-, -, -, -, -, -, -, -, -, -, e0, e1, -⟩ := idx_facts0 t
  show V c main_v6 (((cfg0.win 5).blk t).view.emb (ix2 k j)) = V c main_v6 (ix2 k j)
  refine congrArg _ ?_
  funext a; apply Fin.ext
  match a with
  | ⟨0, _⟩ => show win0_5.index t (0 : Fin 2) * 256 + 1 * k.val = k.val; omega
  | ⟨1, _⟩ => show win0_5.index t (1 : Fin 2) * 128 + 1 * j.val = j.val; omega
theorem rd0_6 (c : Dev nD) (t : Fin cfg0.N) (z : Fin 1) (j : Fin 128) :
    (iblk0 V c 6 t : S1x128.Idx → EReal) (ix2 z j) = mB1 V c (ix2 z j) := by
  obtain ⟨-, -, -, -, -, -, -, -, -, -, -, -, e0, e1, -⟩ := idx_facts0 t
  show V c main_v8 (((cfg0.win 6).blk t).view.emb (ix2 z j)) = V c main_v8 (ix2 z j)
  refine congrArg _ ?_
  funext a; apply Fin.ext
  match a with
  | ⟨0, _⟩ => show win0_6.index t (0 : Fin 2) * 1 + 1 * z.val = z.val; omega
  | ⟨1, _⟩ => show win0_6.index t (1 : Fin 2) * 128 + 1 * j.val = j.val; omega

/-- Entry (p, q) of the output's block at point t is entry (t·4000 + p, q) of the output array. -/
theorem emb0_7 (t : Fin cfg0.N) (p : Fin 4000) (q : Fin 128) :
    ((cfg0.win 7).blk t).view.emb (ix2 p q) = (ix2 (row0 t p) q : S600000x128.Idx) := by
  obtain ⟨-, -, -, -, -, -, -, -, -, -, -, -, -, -, e0, e1⟩ := idx_facts0 t
  funext a; apply Fin.ext
  match a with
  | ⟨0, _⟩ => show win0_7.index t (0 : Fin 2) * 4000 + 1 * p.val = t.val * 4000 + p.val; omega
  | ⟨1, _⟩ => show win0_7.index t (1 : Fin 2) * 128 + 1 * q.val = q.val; omega

/-- What point t writes back is block t of the messages. -/
theorem flushed0 (c : Dev nD) (t : Fin cfg0.N) :
    (dat0 V c).flushed 7 t = ((cfg0.win 7).blk t).view.read (Elt Ideal) (msgOf V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S128x256) hz, View.ld_unit_zero (S := S1x256) hz,
    View.ld_unit_zero (S := S256x128) hz, View.ld_unit_zero (S := S1x128) hz]
  funext y
  obtain ⟨p, q, rfl⟩ : ∃ (p : Fin 4000) (q : Fin 128), y = ix2 p q := ⟨y 0, y 1, eq_ix2 y⟩
  show k0_pay1 (iblk0 V c 0 t) (iblk0 V c 1 t) (iblk0 V c 2 t) (iblk0 V c 3 t) (iblk0 V c 4 t) (iblk0 V c 5 t) (iblk0 V c 6 t) (ix2 p q)
    = msgOf V c (((cfg0.win 7).blk t).view.emb (ix2 p q))
  rw [emb0_7 t p q]
  refine (Pay.pay0_apply (iblk0 V c 0 t) (iblk0 V c 1 t) (iblk0 V c 2 t) (iblk0 V c 3 t) (iblk0 V c 4 t) (iblk0 V c 5 t) (iblk0 V c 6 t) p q).trans ?_
  simp only [rd0_0 V c t, rd0_1 V c t, rd0_2 V c t, rd0_3 V c t, rd0_4 V c t, rd0_5 V c t, rd0_6 V c t]
  rfl

/-- An index of the message array is in point t's block iff each coordinate is in the block's range on its axis. -/
theorem mem_blk0 (t : Fin cfg0.N) (i : S600000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v9).slice (win0_7.rect t)).set ↔ _
  rw [View.set_slice_whole, Rect.mem_set_unit]
  exact Iff.rfl

/-- Every row is in some point's block: row r in block r / 4000. -/
theorem cover0 (i : S600000x128.Idx) : ∃ t : Fin cfg0.N, (cfg0.win 7).flush t = true ∧ i ∈ ((cfg0.win 7).blk t).view.set := by
  have hi0 : (i 0).val < 600000 := (i 0).isLt
  have hi1 : (i 1).val < 128 := (i 1).isLt
  have hN : (i 0).val / 4000 < cfg0.N := by rw [show cfg0.N = 150 from N_0]; omega
  obtain ⟨-, -, -, -, -, -, -, -, -, -, -, -, -, -, e0, e1⟩ := idx_facts0 ⟨(i 0).val / 4000, hN⟩
  refine ⟨⟨(i 0).val / 4000, hN⟩, flush0_7 _, ?_⟩
  rw [mem_blk0]
  intro a
  match a with
  | ⟨0, _⟩ =>
    show win0_7.index ⟨(i 0).val / 4000, hN⟩ (0 : Fin 2) * 4000 ≤ (i 0).val ∧ (i 0).val < win0_7.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, hN⟩ (1 : Fin 2) * 128 ≤ (i 1).val ∧ (i 1).val < win0_7.index ⟨(i 0).val / 4000, hN⟩ (1 : Fin 2) * 128 + 128
    rw [e1]; omega

/-- THE MESSAGE ARRAY after the run is the message function of the operand arrays. -/
theorem final0 (c : Dev nD) : (dat0 V c).arrAt 7 cfg0.N = msgOf V c :=
  (dat0 V c).arrAt_eq_of_cover 7 (msgOf V c) (fun t _ => flushed0 V c t) cover0

/-! ## The update kernel -/

/-- Its operand arrays on entry, by their literal types. -/
abbrev aggRows (c : Dev nD) : S50000x128.Idx → EReal := V c main_v12
abbrev nodeRows (c : Dev nD) : S50000x128.Idx → EReal := V c main_arg0
abbrev uW0a (c : Dev nD) : S128x256.Idx → EReal := V c main_v14
abbrev uW0b (c : Dev nD) : S128x256.Idx → EReal := V c main_v16
abbrev uB0 (c : Dev nD) : S1x256.Idx → EReal := V c main_v18
abbrev uW1 (c : Dev nD) : S256x128.Idx → EReal := V c main_v17
abbrev uB1 (c : Dev nD) : S1x128.Idx → EReal := V c main_v19

/-- The updated node features as one function of the operand arrays: the node's own entry plus the perceptron of (its aggregate row, its own row). -/
def updOf (c : Dev nD) : S50000x128.Idx → EReal := fun i =>
  nodeRows V c (ix2 ⟨(i 0).val, idx2_lt0 i⟩ ⟨(i 1).val, idx2_lt1 i⟩) + rowFn (fun k' => aggRows V c (ix2 ⟨(i 0).val, idx2_lt0 i⟩ k')) (fun k' => nodeRows V c (ix2 ⟨(i 0).val, idx2_lt0 i⟩ k'))
    (uW0a V c) (uW0b V c) (uB0 V c) (uW1 V c) (uB1 V c) ⟨(i 1).val, idx2_lt1 i⟩

/-- The printed index maps over the grid: the row-blocked windows are at block t, the others at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt10 (t : Fin cfg1.N) : t.val < 10 := lt_of_lt_of_eq t.isLt N_1

/-- Row p of block t. -/
abbrev row1 (t : Fin cfg1.N) (p : Fin 5000) : Fin 50000 := ⟨t.val * 5000 + p.val, by have := lt10 t; omega⟩

/-- The aggregate rows' block at point t is the aggregate array at rows t·5000 + p. -/
theorem rd1_0 (c : Dev nD) (t : Fin cfg1.N) (p : Fin 5000) (k' : Fin 128) :
    (iblk1 V c 0 t : S5000x128.Idx → EReal) (ix2 p k') = aggRows V c (ix2 (row1 t p) k') := by
  obtain ⟨e0, e1, -⟩ := idx_facts1 t
  show V c main_v12 (((cfg1.win 0).blk t).view.emb (ix2 p k')) = V c main_v12 (ix2 (row1 t p) k')
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k'.val = k'.val; omega

/-- The node rows' block at point t is the node table at rows t·5000 + p. -/
theorem rd1_1 (c : Dev nD) (t : Fin cfg1.N) (p : Fin 5000) (k' : Fin 128) :
    (iblk1 V c 1 t : S5000x128.Idx → EReal) (ix2 p k') = nodeRows V c (ix2 (row1 t p) k') := by
  obtain ⟨-, -, e0, e1, -⟩ := idx_facts1 t
  show V c main_arg0 (((cfg1.win 1).blk t).view.emb (ix2 p k')) = V c main_arg0 (ix2 (row1 t p) k')
  refine congrArg _ ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k'.val = k'.val; omega

/-- The weights and biases are whole at every point. -/
theorem rd1_2 (c : Dev nD) (t : Fin cfg1.N) (k' : Fin 128) (k : Fin 256) :
    (iblk1 V c 2 t : S128x256.Idx → EReal) (ix2 k' k) = uW0a V c (ix2 k' k) := by
  obtain ⟨-, -, -, -, e0, e1, -⟩ := idx_facts1 t
  show V c main_v14 (((cfg1.win 2).blk t).view.emb (ix2 k' k)) = V c main_v14 (ix2 k' k)
  refine congrArg _ ?_
  funext a; apply Fin.ext
  match a with
  | ⟨0, _⟩ => show win1_2.index t (0 : Fin 2) * 128 + 1 * k'.val = k'.val; omega
  | ⟨1, _⟩ => show win1_2.index t (1 : Fin 2) * 256 + 1 * k.val = k.val; omega
theorem rd1_3 (c : Dev nD) (t : Fin cfg1.N) (k' : Fin 128) (k : Fin 256) :
    (iblk1 V c 3 t : S128x256.Idx → EReal) (ix2 k' k) = uW0b V c (ix2 k' k) := by
  obtain ⟨-, -, -, -, -, -, e0, e1, -⟩ := idx_facts1 t
  show V c main_v16 (((cfg1.win 3).blk t).view.emb (ix2 k' k)) = V c main_v16 (ix2 k' k)
  refine congrArg _ ?_
  funext a; apply Fin.ext
  match a with
  | ⟨0, _⟩ => show win1_3.index t (0 : Fin 2) * 128 + 1 * k'.val = k'.val; omega
  | ⟨1, _⟩ => show win1_3.index t (1 : Fin 2) * 256 + 1 * k.val = k.val; omega
theorem rd1_4 (c : Dev nD) (t : Fin cfg1.N) (z : Fin 1) (k : Fin 256) :
    (iblk1 V c 4 t : S1x256.Idx → EReal) (ix2 z k) = uB0 V c (ix2 z k) := by
  obtain ⟨-, -, -, -, -, -, -, -, e0, e1, -⟩ := idx_facts1 t
  show V c main_v18 (((cfg1.win 4).blk t).view.emb (ix2 z k)) = V c main_v18 (ix2 z k)
  refine congrArg _ ?_
  funext a; apply Fin.ext
  match a with
  | ⟨0, _⟩ => show win1_4.index t (0 : Fin 2) * 1 + 1 * z.val = z.val; omega
  | ⟨1, _⟩ => show win1_4.index t (1 : Fin 2) * 256 + 1 * k.val = k.val; omega
theorem rd1_5 (c : Dev nD) (t : Fin cfg1.N) (k : Fin 256) (j : Fin 128) :
    (iblk1 V c 5 t : S256x128.Idx → EReal) (ix2 k j) = uW1 V c (ix2 k j) := by
  obtain ⟨-, -, -, -, -, -, -, -, -, -, e0, e1, -⟩ := idx_facts1 t
  show V c main_v17 (((cfg1.win 5).blk t).view.emb (ix2 k j)) = V c main_v17 (ix2 k j)
  refine congrArg _ ?_
  funext a; apply Fin.ext
  match a with
  | ⟨0, _⟩ => show win1_5.index t (0 : Fin 2) * 256 + 1 * k.val = k.val; omega
  | ⟨1, _⟩ => show win1_5.index t (1 : Fin 2) * 128 + 1 * j.val = j.val; omega
theorem rd1_6 (c : Dev nD) (t : Fin cfg1.N) (z : Fin 1) (j : Fin 128) :
    (iblk1 V c 6 t : S1x128.Idx → EReal) (ix2 z j) = uB1 V c (ix2 z j) := by
  obtain ⟨-, -, -, -, -, -, -, -, -, -, -, -, e0, e1, -⟩ := idx_facts1 t
  show V c main_v19 (((cfg1.win 6).blk t).view.emb (ix2 z j)) = V c main_v19 (ix2 z j)
  refine congrArg _ ?_
  funext a; apply Fin.ext
  match a with
  | ⟨0, _⟩ => show win1_6.index t (0 : Fin 2) * 1 + 1 * z.val = z.val; omega
  | ⟨1, _⟩ => show win1_6.index t (1 : Fin 2) * 128 + 1 * j.val = j.val; omega

/-- Entry (p, q) of the output's block at point t is entry (t·5000 + p, q) of the output array. -/
theorem emb1_7 (t : Fin cfg1.N) (p : Fin 5000) (q : Fin 128) :
    ((cfg1.win 7).blk t).view.emb (ix2 p q) = (ix2 (row1 t p) q : S50000x128.Idx) := by
  obtain ⟨-, -, -, -, -, -, -, -, -, -, -, -, -, -, e0, e1⟩ := idx_facts1 t
  funext a; apply Fin.ext
  match a with
  | ⟨0, _⟩ => show win1_7.index t (0 : Fin 2) * 5000 + 1 * p.val = t.val * 5000 + p.val; omega
  | ⟨1, _⟩ => show win1_7.index t (1 : Fin 2) * 128 + 1 * q.val = q.val; omega

/-- What point t writes back is block t of the updated features. -/
theorem flushed1 (c : Dev nD) (t : Fin cfg1.N) :
    (dat1 V c).flushed 7 t = ((cfg1.win 7).blk t).view.read (Elt Ideal) (updOf V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 3 t) (iblk1 V c 4 t) (iblk1 V c 5 t) (iblk1 V c 6 t) (ix2 p q)
    = updOf V c (((cfg1.win 7).blk t).view.emb (ix2 p q))
  rw [emb1_7 t p q]
  refine (Pay.pay1_apply (iblk1 V c 0 t) (iblk1 V c 1 t) (iblk1 V c 2 t) (iblk1 V c 3 t) (iblk1 V c 4 t) (iblk1 V c 5 t) (iblk1 V c 6 t) p q).trans ?_
  simp only [rd1_0 V c t, rd1_1 V c t, rd1_2 V c t, rd1_3 V c t, rd1_4 V c t, rd1_5 V c t, rd1_6 V c t]
  rfl

/-- An index of the result array is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v20).slice (win1_7.rect t)).set ↔ _
  rw [View.set_slice_whole, Rect.mem_set_unit]
  exact Iff.rfl

/-- Every row is in some point's block: row r in block r / 5000. -/
theorem cover1 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : (i 0).val / 5000 < cfg1.N := by rw [show cfg1.N = 10 from N_1]; omega
  obtain ⟨-, -, -, -, -, -, -, -, -, -, -, -, -, -, e0, e1⟩ := idx_facts1 ⟨(i 0).val / 5000, hN⟩
  refine ⟨⟨(i 0).val / 5000, hN⟩, flush1_7 _, ?_⟩
  rw [mem_blk1]
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hN⟩ (1 : Fin 2) * 128 ≤ (i 1).val ∧ (i 1).val < win1_7.index ⟨(i 0).val / 5000, hN⟩ (1 : Fin 2) * 128 + 128
    rw [e1]; omega

/-- THE RESULT ARRAY after the run is the update function of the operand arrays. -/
theorem final1 (c : Dev nD) : (dat1 V c).arrAt 7 cfg1.N = updOf V c :=
  (dat1 V c).arrAt_eq_of_cover 7 (updOf V c) (fun t _ => flushed1 V c t) cover1

end Cert.KernelIdeal.Regions

end
-- ==== Proof.KernelTake.lean ====
/-
  jnp.take along the first axis, as the kernel's program spells it: a negative index is wrapped once by the table's
  height, the wrapped index w is tested for 0 ≤ w ≤ 49999, and a row that fails the test is filled with one constant
  word instead of a row of the table. On a row whose wrapped index passes the test the result is the gathered row.
-/
import proofs.«421214_j81492709474574_1_alg».proof.Proof.Gen.KernelIdeal
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Gen Idealize.ShloMosaic Idealize.ShloMosaic.ValueIdx

variable {F : FTy → Type} [FloatOps F]

/-- An index wrapped once: idx + 50000 where idx < 0, else idx. -/
def wrap (idx : IVec S600000 32) : IVec S600000 32 :=
  select (cmpi .slt idx (broadcastInDim S600000 ![] bcast_S_S600000 (constantI S_ 32 0#32)))
    (addi idx (broadcastInDim S600000 ![] bcast_S_S600000 (constantI S_ 32 50000#32))) idx

/-- The wrapped indices as a column of start positions. -/
def col (idx : IVec S600000 32) : IVec S600000x1 32 :=
  broadcastInDim S600000x1 ![0] bcast_S600000_S600000x1_0 (wrap idx)

/-- Row by row: does the wrapped index lie in [0, 49999]? -/
def ok (idx : IVec S600000 32) : IVec S600000 1 :=
  Host.reduce IntOp.andi
    (andi (cmpi .sge (col idx) (broadcastInDim S600000x1 ![] bcast_S_S600000x1 (constantI S_ 32 0#32)))
      (cmpi .sle (col idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The take: the gathered row where the test passes, the fill word elsewhere. -/
def takeFill (x : FVec F S50000x128 .f32) (idx : IVec S600000 32) : FVec F S600000x128 .f32 :=
  select (broadcastInDim S600000x128 ![0] bcast_S600000_S600000x128_0 (ok idx))
    (Host.gather gather_S50000x128_S600000x1_S600000x128_1_0_n_n_0_1_1128 x (col idx))
    (broadcastInDim S600000x128 ![] bcast_S_S600000x128 (constant S_ .f32 0x7FC00000#32))

/-- A one-bit word that is not 1 is 0. -/
theorem bit_eq_zero_of_ne_one (c : BitVec 1) (h : c ≠ 1#1) : c = 0#1 := by
  revert c; decide

/-- A left fold by `and` that starts at 1 and meets only 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : IntOp.andi 1#1 (f a) = 1#1 := by rw [h a (List.mem_cons_self ..)]; decide
    rw [List.foldl_cons, ha]
    exact foldl_andi_one f l fun n hn => h n (List.mem_cons_of_mem _ hn)

/-- A nonnegative index is not wrapped. -/
theorem wrap_of_nonneg (idx : IVec S600000 32) (e : Fin 600000) (h0 : 0 ≤ (idx (ix1 e)).toInt) :
    wrap idx (ix1 e) = idx (ix1 e) := by
  have hc : IntOp.cmpi .slt (idx (ix1 e)) 0#32 = 0#1 := by
    refine bit_eq_zero_of_ne_one _ fun hc => ?_
    have hlt := IntOp.cmpi_slt.1 hc
    have z : (0#32).toInt = 0 := by decide
    omega
  show Scalar.select (IntOp.cmpi .slt (idx (ix1 e)) 0#32) _ _ = _
  rw [hc, select_zero]

/-- The column of start positions at any position of row e is the wrapped index of row e. -/
theorem col_of_row (idx : IVec S600000 32) (i : S600000x1.Idx) (e : Fin 600000) (hi : (i 0).val = e.val) :
    col idx i = wrap idx (ix1 e) := by
  unfold col broadcastInDim
  refine congrArg (wrap idx) (funext fun a => ?_)
  have ha : a = 0 := Subsingleton.elim _ _
  subst ha
  apply Fin.ext
  split
  · next h1 => exact absurd h1 (by decide)
  · exact hi

/-- On a row whose index is a row number of the table the range test passes. -/
theorem ok_of_range (idx : IVec S600000 32) (e : Fin 600000)
    (h0 : 0 ≤ (idx (ix1 e)).toInt) (h1 : (idx (ix1 e)).toInt < 50000) : ok idx (ix1 e) = 1#1 := by
  unfold ok
  rw [Host.reduce_eq_foldl]
  refine foldl_andi_one _ _ fun i hi => ?_
  -- a position that reduces into row e lies in row e
  have hd : reducesTo_S600000x1_S600000_d1.drop i = ix1 e := of_decide_eq_true (List.mem_filter.1 hi).2
  have hi0 : (i 0).val = e.val :=
    (Shape.ReducesTo.drop_apply_val_of_eq reducesTo_S600000x1_S600000_d1 i 0 0).symm.trans
      (congrArg (fun k : S600000.Idx => (k 0).val) hd)
  -- there the column holds the index itself, and both comparisons hold
  have hc : col idx i = idx (ix1 e) := (col_of_row idx i e hi0).trans (wrap_of_nonneg idx e h0)
  have z : (0#32).toInt = 0 := by decide
  have m : (49999#32).toInt = 49999 := by decide
  refine IntOp.andi_eq_one.2 ⟨IntOp.cmpi_sge.2 ?_, IntOp.cmpi_sle.2 ?_⟩
  · show (0#32).toInt ≤ (col idx i).toInt
    rw [hc, z]; exact h0
  · show (col idx i).toInt ≤ (49999#32).toInt
    rw [hc, m]; omega

/-- A vector laid along the first axis of the rectangle reads, at (e, j), the vector at e. -/
theorem bcast_row_apply {α : Type} (v : S600000.Idx → α) (e : Fin 600000) (j : Fin 128) :
    broadcastInDim S600000x128 ![0] bcast_S600000_S600000x128_0 v (ix2 e j) = v (ix1 e) := by
  unfold broadcastInDim
  refine congrArg v (funext fun a => ?_)
  have ha : a = 0 := Subsingleton.elim _ _
  subst ha
  apply Fin.ext
  split
  · next h1 => exact absurd h1 (by decide)
  · rfl

/-- On a row whose index is a row number of the table, the take is the gather. -/
theorem takeFill_of_range (x : FVec F S50000x128 .f32) (idx : IVec S600000 32) (e : Fin 600000) (j : Fin 128)
    (h0 : 0 ≤ (idx (ix1 e)).toInt) (h1 : (idx (ix1 e)).toInt < 50000) :
    takeFill x idx (ix2 e j) = Host.gather gather_S50000x128_S600000x1_S600000x128_1_0_n_n_0_1_1128 x (col idx) (ix2 e j) := by
  -- the row's test bit is 1, so the selection takes the gathered entry
  unfold takeFill
  rw [select_apply, bcast_row_apply, ok_of_range idx e h0 h1, select_one]

end Cert.KernelIdeal.Take

end
-- ==== Proof.Spec.lean ====
/-
  The mathematics both programs compute, over the extended reals.

  One message-passing step of a graph network. For a pair of [n × 128] matrices (a, b), a [256 × 256] weight matrix W0
  whose first 128 rows multiply a's row and whose last 128 rows multiply b's row, a bias b0, a [256 × 128] matrix W1 and
  a bias b1, the two-layer perceptron of row r is

      mlp r j = max (Σ_k max (Σ_k' a[r,k']·W0[k',k] + Σ_k' b[r,k']·W0[128+k',k] + b0[k]) 0 · W1[k,j] + b1[j]) 0.

  The other spelling contracts the concatenated row (a[r,·] ‖ b[r,·]) of length 256 against W0 in one sum. The two agree
  because a sum over 256 = 128 + 128 indices is the sum of its two halves: addition of extended reals is commutative and
  associative, so no finiteness is needed.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Row k' of the upper half of a 256-row matrix. -/
abbrev lo (k' : Fin 128) : Fin 256 := ⟨k'.val, by omega⟩
/-- Row k' of the lower half of a 256-row matrix. -/
abbrev hi (k' : Fin 128) : Fin 256 := ⟨128 + k'.val, by omega⟩

/-- The hidden layer at (row r, unit k): the upper half of W0 against a's row, the lower half against b's row, the bias, then ReLU. -/
def layer1 {n : Nat} (a b : (⟨2, ![n, 128]⟩ : Shape).Idx → EReal) (W0 : (⟨2, ![256, 256]⟩ : Shape).Idx → EReal)
    (b0 : (⟨1, ![256]⟩ : Shape).Idx → EReal) (r : Fin n) (k : Fin 256) : EReal :=
  max ((∑ k' : Fin 128, a (ix2 r k') * W0 (ix2 (lo k') k)) + (∑ k' : Fin 128, b (ix2 r k') * W0 (ix2 (hi k') k)) + b0 (ix1 k)) 0

/-- The perceptron's output at (row r, column j). -/
def mlp {n : Nat} (a b : (⟨2, ![n, 128]⟩ : Shape).Idx → EReal) (W0 : (⟨2, ![256, 256]⟩ : Shape).Idx → EReal)
    (b0 : (⟨1, ![256]⟩ : Shape).Idx → EReal) (W1 : (⟨2, ![256, 128]⟩ : Shape).Idx → EReal)
    (b1 : (⟨1, ![128]⟩ : Shape).Idx → EReal) (r : Fin n) (j : Fin 128) : EReal :=
  max ((∑ k : Fin 256, layer1 a b W0 b0 r k * W1 (ix2 k j)) + b1 (ix1 j)) 0

/-- The perceptron as an [n × 128] array. -/
def mlpArr {n : Nat} (a b : (⟨2, ![n, 128]⟩ : Shape).Idx → EReal) (W0 : (⟨2, ![256, 256]⟩ : Shape).Idx → EReal)
    (b0 : (⟨1, ![256]⟩ : Shape).Idx → EReal) (W1 : (⟨2, ![256, 128]⟩ : Shape).Idx → EReal)
    (b1 : (⟨1, ![128]⟩ : Shape).Idx → EReal) : (⟨2, ![n, 128]⟩ : Shape).Idx → EReal :=
  fun i => mlp a b W0 b0 W1 b1 ⟨(i 0).val, idx2_lt0 i⟩ ⟨(i 1).val, idx2_lt1 i⟩

theorem mlpArr_apply {n : Nat} (a b : (⟨2, ![n, 128]⟩ : Shape).Idx → EReal) (W0 : (⟨2, ![256, 256]⟩ : Shape).Idx → EReal)
    (b0 : (⟨1, ![256]⟩ : Shape).Idx → EReal) (W1 : (⟨2, ![256, 128]⟩ : Shape).Idx → EReal)
    (b1 : (⟨1, ![128]⟩ : Shape).Idx → EReal) (r : Fin n) (j : Fin 128) :
    mlpArr a b W0 b0 W1 b1 (ix2 r j) = mlp a b W0 b0 W1 b1 r j := rfl

/-- The perceptron plus the second operand's own entry (the residual connection), as an [n × 128] array. -/
def residArr {n : Nat} (a b : (⟨2, ![n, 128]⟩ : Shape).Idx → EReal) (W0 : (⟨2, ![256, 256]⟩ : Shape).Idx → EReal)
    (b0 : (⟨1, ![256]⟩ : Shape).Idx → EReal) (W1 : (⟨2, ![256, 128]⟩ : Shape).Idx → EReal)
    (b1 : (⟨1, ![128]⟩ : Shape).Idx → EReal) : (⟨2, ![n, 128]⟩ : Shape).Idx → EReal :=
  fun i => b i + mlpArr a b W0 b0 W1 b1 i

/-- A sum over 256 indices is the sum over the upper 128 plus the sum over the lower 128. -/
theorem sum_halves (f : Fin 256 → EReal) : ∑ k : Fin 256, f k = (∑ k' : Fin 128, f (lo k')) + ∑ k' : Fin 128, f (hi k') := by
  have h := Fin.sum_univ_add (a := 128) (b := 128) (fun k : Fin (128 + 128) => f ⟨k.val, k.isLt⟩)
  exact h

/-- The hidden layer from the concatenated row: if cat's row r is a's row followed by b's row, one contraction of length 256
    against W0 is the two contractions of length 128. -/
theorem layer1_of_cat {n : Nat} (a b : (⟨2, ![n, 128]⟩ : Shape).Idx → EReal) (cat : (⟨2, ![n, 256]⟩ : Shape).Idx → EReal)
    (W0 : (⟨2, ![256, 256]⟩ : Shape).Idx → EReal) (b0 : (⟨1, ![256]⟩ : Shape).Idx → EReal) (r : Fin n) (k : Fin 256)
    (hlo : ∀ k' : Fin 128, cat (ix2 r (lo k')) = a (ix2 r k')) (hhi : ∀ k' : Fin 128, cat (ix2 r (hi k')) = b (ix2 r k')) :
    max ((∑ k'' : Fin 256, cat (ix2 r k'') * W0 (ix2 k'' k)) + b0 (ix1 k)) 0 = layer1 a b W0 b0 r k := by
  unfold layer1
  rw [sum_halves]
  simp only [hlo, hhi]

/-- The perceptron reads only row r of its two operands. -/
theorem mlp_congr_row {n : Nat} (a b a' b' : (⟨2, ![n, 128]⟩ : Shape).Idx → EReal) (W0 : (⟨2, ![256, 256]⟩ : Shape).Idx → EReal)
    (b0 : (⟨1, ![256]⟩ : Shape).Idx → EReal) (W1 : (⟨2, ![256, 128]⟩ : Shape).Idx → EReal)
    (b1 : (⟨1, ![128]⟩ : Shape).Idx → EReal) (r : Fin n) (j : Fin 128)
    (ha : ∀ k' : Fin 128, a (ix2 r k') = a' (ix2 r k')) (hb : ∀ k' : Fin 128, b (ix2 r k') = b' (ix2 r k')) :
    mlp a b W0 b0 W1 b1 r j = mlp a' b' W0 b0 W1 b1 r j := by
  unfold mlp layer1
  simp only [ha, hb]

end Cert.Spec

end
-- ==== Proof.KernelHost0.lean ====
/-
  What the message kernel finds in its seven operand arrays, read back through the host operations before it to the
  program's arguments: the two takes of the node table, the upper and the lower 128 rows of the first weight matrix, the
  second weight matrix, and the two biases as one-row matrices. Format changes are the identity over the extended reals.
-/
import proofs.«421214_j81492709474574_1_alg».proof.Proof.Gen.KernelIdeal.Frame
import proofs.«421214_j81492709474574_1_alg».proof.Proof.KernelTake
import proofs.«421214_j81492709474574_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx
open Cert.KernelIdeal.Take (takeFill)

variable (m : (ℓ : Loc nD τ sig) → Buf (Elt Ideal) ℓ) (ρ : Dev nD → PrngReg)

/-! ## One stretch at a time, from any contents

What a stretch of host operations leaves at a reference it writes, as the operations' own term over the contents the
stretch starts from at its operands. -/

/-- The first take's stretch leaves at its result the take of the table by the first index vector. -/
theorem ops0_v0 (V : Valuation τ sig (Elt Ideal)) :
    (StableHlo.after (hostOps0 (F := Ideal)) V (Proc.devRef .tc main_v0) : S600000x128.Idx → EReal)
      = takeFill (F := Ideal) (V (Proc.devRef .tc main_arg0)) (V (Proc.devRef .tc main_arg1)) := by
  after_results_simp
  simp only [StableHlo.TRef.ofBuf, StableHlo.TRef.toBuf, cast_eq]
  rfl

/-- The second take's stretch leaves at its result the take of the table by the second index vector. -/
theorem ops01_v1 (V : Valuation τ sig (Elt Ideal)) :
    (StableHlo.after (hostOps0_1 (F := Ideal)) V (Proc.devRef .tc main_v1) : S600000x128.Idx → EReal)
      = takeFill (F := Ideal) (V (Proc.devRef .tc main_arg0)) (V (Proc.devRef .tc main_arg2)) := by
  after_results_simp
  simp only [StableHlo.TRef.ofBuf, StableHlo.TRef.toBuf, cast_eq]
  rfl

/-- Rows 0 to 127 of the first weight matrix, under a format change. -/
theorem ops2_v3 (V : Valuation τ sig (Elt Ideal)) :
    (StableHlo.after (hostOps0_2 (F := Ideal)) V (Proc.devRef .tc main_v3) : S128x256.Idx → EReal)
      = (truncf (F := Ideal) .bf16 (extractStridedSlice S128x256 ![0, 0] (V (Proc.devRef .tc main_arg3) : S256x256.Idx → EReal) slices_S256x256_S128x256_0_0) bitsLt_bf16_f32 : FVec Ideal S128x256 .bf16) := by
  after_results <;> rfl

/-- Rows 128 to 255 of the first weight matrix, under a format change. -/
theorem ops2_v5 (V : Valuation τ sig (Elt Ideal)) :
    (StableHlo.after (hostOps0_2 (F := Ideal)) V (Proc.devRef .tc main_v5) : S128x256.Idx → EReal)
      = (truncf (F := Ideal) .bf16 (extractStridedSlice S128x256 ![128, 0] (V (Proc.devRef .tc main_arg3) : S256x256.Idx → EReal) slices_S256x256_S128x256_128_0) bitsLt_bf16_f32 : FVec Ideal S128x256 .bf16) := by
  after_results <;> rfl

/-- The second weight matrix under a format change. -/
theorem ops2_v6 (V : Valuation τ sig (Elt Ideal)) :
    (StableHlo.after (hostOps0_2 (F := Ideal)) V (Proc.devRef .tc main_v6) : S256x128.Idx → EReal)
      = (truncf (F := Ideal) .bf16 (V (Proc.devRef .tc main_arg5) : S256x128.Idx → EReal) bitsLt_bf16_f32 : FVec Ideal S256x128 .bf16) := by
  after_results <;> rfl

/-- The first bias as a one-row matrix. -/
theorem ops2_v7 (V : Valuation τ sig (Elt Ideal)) :
    (StableHlo.after (hostOps0_2 (F := Ideal)) V (Proc.devRef .tc main_v7) : S1x256.Idx → EReal)
      = shapeCast S1x256 (V (Proc.devRef .tc main_arg4) : S256.Idx → EReal) shapeCasts_S256_S1x256 := by
  after_results <;> rfl

/-- The second bias as a one-row matrix. -/
theorem ops2_v8 (V : Valuation τ sig (Elt Ideal)) :
    (StableHlo.after (hostOps0_2 (F := Ideal)) V (Proc.devRef .tc main_v8) : S1x128.Idx → EReal)
      = shapeCast S1x128 (V (Proc.devRef .tc main_arg6) : S128.Idx → EReal) shapeCasts_S128_S1x128 := by
  after_results <;> rfl

/-! ## References a stretch does not write

The contents at a reference that no operation of a stretch writes pass through the stretch unchanged: one inequality of
references per operation. -/

local macro "passes " ops:ident : tactic => `(tactic| (
  refine StableHlo.after_of_forall_not_mem $ops _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- The node table is as launched when the second take starts. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by passes hostOps0
    _ = m ((c : Thread nD τ).loc main_arg0) := rfl
/-- The second index vector is as launched when the second take starts. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by passes hostOps0
    _ = m ((c : Thread nD τ).loc main_arg2) := rfl
/-- The first weight matrix is as launched after both takes. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := by passes hostOps0_1
    _ = W0 m ρ c (Proc.devRef .tc main_arg3) := by passes hostOps0
    _ = m ((c : Thread nD τ).loc main_arg3) := rfl
/-- The first bias is as launched after both takes. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by passes hostOps0_1
    _ = W0 m ρ c (Proc.devRef .tc main_arg4) := by passes hostOps0
    _ = m ((c : Thread nD τ).loc main_arg4) := rfl
/-- The second weight matrix is as launched after both takes. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by passes hostOps0_1
    _ = W0 m ρ c (Proc.devRef .tc main_arg5) := by passes hostOps0
    _ = m ((c : Thread nD τ).loc main_arg5) := rfl
/-- The second bias is as launched after both takes. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by passes hostOps0_1
    _ = W0 m ρ c (Proc.devRef .tc main_arg6) := by passes hostOps0
    _ = m ((c : Thread nD τ).loc main_arg6) := rfl

/-! ## The message kernel's operands at its entry -/

theorem W3_v0 (c : Dev nD) :
    (W3 m ρ c (Proc.devRef .tc main_v0) : S600000x128.Idx → EReal)
      = takeFill (F := Ideal) (m ((c : Thread nD τ).loc main_arg0)) (m ((c : Thread nD τ).loc main_arg1)) :=
  calc (W3 m ρ c (Proc.devRef .tc main_v0) : S600000x128.Idx → EReal)
    _ = W2 m ρ c (Proc.devRef .tc main_v0) := by passes hostOps0_2
    _ = W1 m ρ c (Proc.devRef .tc main_v0) := by passes hostOps0_1
    _ = takeFill (F := Ideal) (W0 m ρ c (Proc.devRef .tc main_arg0)) (W0 m ρ c (Proc.devRef .tc main_arg1)) := ops0_v0 (W0 m ρ c)
    _ = takeFill (F := Ideal) (m ((c : Thread nD τ).loc main_arg0)) (m ((c : Thread nD τ).loc main_arg1)) := rfl
theorem W3_v1 (c : Dev nD) :
    (W3 m ρ c (Proc.devRef .tc main_v1) : S600000x128.Idx → EReal)
      = takeFill (F := Ideal) (m ((c : Thread nD τ).loc main_arg0)) (m ((c : Thread nD τ).loc main_arg2)) :=
  calc (W3 m ρ c (Proc.devRef .tc main_v1) : S600000x128.Idx → EReal)
    _ = W2 m ρ c (Proc.devRef .tc main_v1) := by passes hostOps0_2
    _ = takeFill (F := Ideal) (W1 m ρ c (Proc.devRef .tc main_arg0)) (W1 m ρ c (Proc.devRef .tc main_arg2)) := ops01_v1 (W1 m ρ c)
    _ = takeFill (F := Ideal) (m ((c : Thread nD τ).loc main_arg0)) (m ((c : Thread nD τ).loc main_arg2)) := by
      rw [W1_arg0, W1_arg2]
theorem W3_v3 (c : Dev nD) (k' : Fin 128) (k : Fin 256) :
    (W3 m ρ c (Proc.devRef .tc main_v3) : S128x256.Idx → EReal) (ix2 k' k)
      = (m ((c : Thread nD τ).loc main_arg3) : S256x256.Idx → EReal) (ix2 (Cert.Spec.lo k') k) := by
  refine (congrFun (ops2_v3 (W2 m ρ c)) (ix2 k' k)).trans ?_
  refine (truncf_apply (s := S128x256) (φ := .f32) (ψ := .bf16) _ bitsLt_bf16_f32 (ix2 k' k)).trans ?_
  refine (slice2_axis0_apply 0 _ _ k' k (Cert.Spec.lo k') (Nat.zero_add _).symm).trans ?_
  rw [W2_arg3]
theorem W3_v5 (c : Dev nD) (k' : Fin 128) (k : Fin 256) :
    (W3 m ρ c (Proc.devRef .tc main_v5) : S128x256.Idx → EReal) (ix2 k' k)
      = (m ((c : Thread nD τ).loc main_arg3) : S256x256.Idx → EReal) (ix2 (Cert.Spec.hi k') k) := by
  refine (congrFun (ops2_v5 (W2 m ρ c)) (ix2 k' k)).trans ?_
  refine (truncf_apply (s := S128x256) (φ := .f32) (ψ := .bf16) _ bitsLt_bf16_f32 (ix2 k' k)).trans ?_
  refine (slice2_axis0_apply 128 _ _ k' k (Cert.Spec.hi k') rfl).trans ?_
  rw [W2_arg3]
theorem W3_v7 (c : Dev nD) (k : Fin 256) :
    (W3 m ρ c (Proc.devRef .tc main_v7) : S1x256.Idx → EReal) (ix2 (0 : Fin 1) k)
      = (m ((c : Thread nD τ).loc main_arg4) : S256.Idx → EReal) (ix1 k) := by
  refine (congrFun (ops2_v7 (W2 m ρ c)) (ix2 (0 : Fin 1) k)).trans ?_
  refine (shapeCast_a_1a_apply _ _ (0 : Fin 1) k).trans ?_
  rw [W2_arg4]
theorem W3_v6 (c : Dev nD) (i : S256x128.Idx) :
    (W3 m ρ c (Proc.devRef .tc main_v6) : S256x128.Idx → EReal) i = (m ((c : Thread nD τ).loc main_arg5) : S256x128.Idx → EReal) i := by
  refine (congrFun (ops2_v6 (W2 m ρ c)) i).trans ?_
  refine (truncf_apply (s := S256x128) (φ := .f32) (ψ := .bf16) _ bitsLt_bf16_f32 i).trans ?_
  rw [W2_arg5]
theorem W3_v8 (c : Dev nD) (j : Fin 128) :
    (W3 m ρ c (Proc.devRef .tc main_v8) : S1x128.Idx → EReal) (ix2 (0 : Fin 1) j)
      = (m ((c : Thread nD τ).loc main_arg6) : S128.Idx → EReal) (ix1 j) := by
  refine (congrFun (ops2_v8 (W2 m ρ c)) (ix2 (0 : Fin 1) j)).trans ?_
  refine (shapeCast_a_1a_apply _ _ (0 : Fin 1) j).trans ?_
  rw [W2_arg6]

end Cert.KernelIdeal.Host

end
-- ==== Proof.KernelHost1.lean ====
/-
  What the update kernel finds in its seven operand arrays, read back through the host operations between the two kernels:
  the messages accumulated into a zero matrix at the target indices, the node table itself, the upper and the lower 128
  rows of the update's first weight matrix, its second weight matrix, and its two biases as one-row matrices.
-/
import proofs.«421214_j81492709474574_1_alg».proof.Proof.Gen.KernelIdeal.Frame
import proofs.«421214_j81492709474574_1_alg».proof.Proof.KernelTake
import proofs.«421214_j81492709474574_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx
open Cert.KernelIdeal.Take (takeFill)

variable (m : (ℓ : Loc nD τ sig) → Buf (Elt Ideal) ℓ) (ρ : Dev nD → PrngReg)

/-- A buffer that no operation of a stretch writes holds after the stretch what it held before. -/
local macro "keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The launch arguments at the message kernel's exit

None of the three stretches of host operations before the message kernel writes a launch argument, and none of these
six arguments is one of the message kernel's arrays: each still holds its launch contents when the kernel is left. -/

private theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

private theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

private theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

private theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c : Thread nD τ).loc main_arg8) := rfl

private theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c : Thread nD τ).loc main_arg9) := rfl

private theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by keeps hostOps0_2
    _ = W1 m ρ c (Proc.devRef .tc main_arg10) := by keeps hostOps0_1
    _ = W0 m ρ c (Proc.devRef .tc main_arg10) := by keeps hostOps0
    _ = m ((c : Thread nD τ).loc main_arg10) := rfl

/-! ## The update kernel's operands

Each is one or two host operations of the stretch between the kernels, applied to buffers that stretch does not write. -/

/-- The messages scattered, with addition, into a zero matrix at the rows the target column names. -/
theorem W5_v12 (c : Dev nD) :
    W5 m ρ c (Proc.devRef .tc main_v12)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (m ((c : Thread nD τ).loc main_arg2)))
          (W4 m ρ c (Proc.devRef .tc main_v9)) := by
  rw [← W4_arg2 m ρ c]
  show StableHlo.after hostOps1 (W4 m ρ c) (Proc.devRef .tc main_v12) = _
  after_results
/-- The node table: no host operation writes it. -/
theorem W5_arg0 (c : Dev nD) :
    W5 m ρ c (Proc.devRef .tc main_arg0) = m ((c : Thread nD τ).loc main_arg0) :=
  calc W5 m ρ c (Proc.devRef .tc main_arg0)
    _ = W4 m ρ c (Proc.devRef .tc main_arg0) := by keeps hostOps1
    _ = m ((c : Thread nD τ).loc main_arg0) := W4_arg0 m ρ c
/-- Rows 0 to 127 of the first weight matrix; the change of format is the identity on extended reals. -/
theorem W5_v14 (c : Dev nD) (k' : Fin 128) (k : Fin 256) :
    (W5 m ρ c (Proc.devRef .tc main_v14) : S128x256.Idx → EReal) (ix2 k' k)
      = (m ((c : Thread nD τ).loc main_arg7) : S256x256.Idx → EReal) (ix2 (Cert.Spec.lo k') k) := by
  rw [← W4_arg7 m ρ c]
  show (StableHlo.after hostOps1 (W4 m ρ c) (Proc.devRef .tc main_v14) : S128x256.Idx → EReal) (ix2 k' k) = _
  after_results
  refine (truncf_apply (φ := .f32) (ψ := .bf16) _ _ _).trans ?_
  exact slice2_axis0_apply 0 _ _ k' k (Cert.Spec.lo k') (Nat.zero_add _).symm
/-- Rows 128 to 255 of the first weight matrix. -/
theorem W5_v16 (c : Dev nD) (k' : Fin 128) (k : Fin 256) :
    (W5 m ρ c (Proc.devRef .tc main_v16) : S128x256.Idx → EReal) (ix2 k' k)
      = (m ((c : Thread nD τ).loc main_arg7) : S256x256.Idx → EReal) (ix2 (Cert.Spec.hi k') k) := by
  rw [← W4_arg7 m ρ c]
  show (StableHlo.after hostOps1 (W4 m ρ c) (Proc.devRef .tc main_v16) : S128x256.Idx → EReal) (ix2 k' k) = _
  after_results
  refine (truncf_apply (φ := .f32) (ψ := .bf16) _ _ _).trans ?_
  exact slice2_axis0_apply 128 _ _ k' k (Cert.Spec.hi k') rfl
/-- The first bias as a one-row matrix: entry (0, k) is entry k. -/
theorem W5_v18 (c : Dev nD) (k : Fin 256) :
    (W5 m ρ c (Proc.devRef .tc main_v18) : S1x256.Idx → EReal) (ix2 (0 : Fin 1) k)
      = (m ((c : Thread nD τ).loc main_arg8) : S256.Idx → EReal) (ix1 k) := by
  rw [← W4_arg8 m ρ c]
  show (StableHlo.after hostOps1 (W4 m ρ c) (Proc.devRef .tc main_v18) : S1x256.Idx → EReal) (ix2 (0 : Fin 1) k) = _
  after_results
  exact shapeCast_a_1a_apply _ _ 0 k
/-- The second weight matrix, its format changed: the same extended reals. -/
theorem W5_v17 (c : Dev nD) (i : S256x128.Idx) :
    (W5 m ρ c (Proc.devRef .tc main_v17) : S256x128.Idx → EReal) i = (m ((c : Thread nD τ).loc main_arg9) : S256x128.Idx → EReal) i := by
  rw [← W4_arg9 m ρ c]
  show (StableHlo.after hostOps1 (W4 m ρ c) (Proc.devRef .tc main_v17) : S256x128.Idx → EReal) i = _
  after_results
  rfl
/-- The second bias as a one-row matrix. -/
theorem W5_v19 (c : Dev nD) (j : Fin 128) :
    (W5 m ρ c (Proc.devRef .tc main_v19) : S1x128.Idx → EReal) (ix2 (0 : Fin 1) j)
      = (m ((c : Thread nD τ).loc main_arg10) : S128.Idx → EReal) (ix1 j) := by
  rw [← W4_arg10 m ρ c]
  show (StableHlo.after hostOps1 (W4 m ρ c) (Proc.devRef .tc main_v19) : S1x128.Idx → EReal) (ix2 (0 : Fin 1) j) = _
  after_results
  exact shapeCast_a_1a_apply _ _ 0 j

end Cert.KernelIdeal.Host

end
-- ==== Proof.KernelValue.lean ====
/-
  The kernel program's result as one function of its arguments, over the extended reals.

  Reading the run backwards: the result array is the update function of the update kernel's operand arrays; those are the
  aggregate (the messages scatter-added into a zero matrix at the target indices), the node table, and the update weights;
  the messages are the message function of the message kernel's operand arrays, which are the two takes of the node table
  and the message weights. With the weights' halves, one-row biases and format changes read back to the arguments, each
  kernel's row function is the specification's perceptron.
-/
import proofs.«421214_j81492709474574_1_alg».proof.Proof.Gen.KernelIdeal.Frame
import proofs.«421214_j81492709474574_1_alg».proof.Proof.KernelRegions
import proofs.«421214_j81492709474574_1_alg».proof.Proof.KernelHost0
import proofs.«421214_j81492709474574_1_alg».proof.Proof.KernelHost1
import proofs.«421214_j81492709474574_1_alg».proof.Proof.KernelTake
import proofs.«421214_j81492709474574_1_alg».proof.Proof.Spec

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Cert.KernelIdeal.Take (takeFill)
open Cert.KernelIdeal.Regions (rowFn msgOf updOf final0 final1)
open Cert.KernelIdeal.Host

/-- A kernel's row function against the weights as it finds them — the two 128-row halves, one-row biases — is the
    specification's perceptron against the whole matrices and bias vectors. -/
theorem rowFn_eq_mlp {n : Nat} (A B : (⟨2, ![n, 128]⟩ : Shape).Idx → EReal) (W0 : S256x256.Idx → EReal) (B0 : S256.Idx → EReal)
    (W1 : S256x128.Idx → EReal) (B1 : S128.Idx → EReal)
    (wa wb : S128x256.Idx → EReal) (b0 : S1x256.Idx → EReal) (w1 : S256x128.Idx → EReal) (b1 : S1x128.Idx → EReal)
    (hwa : ∀ (k' : Fin 128) (k : Fin 256), wa (ix2 k' k) = W0 (ix2 (Cert.Spec.lo k') k))
    (hwb : ∀ (k' : Fin 128) (k : Fin 256), wb (ix2 k' k) = W0 (ix2 (Cert.Spec.hi k') k))
    (hb0 : ∀ k : Fin 256, b0 (ix2 (0 : Fin 1) k) = B0 (ix1 k)) (hw1 : ∀ i, w1 i = W1 i)
    (hb1 : ∀ j : Fin 128, b1 (ix2 (0 : Fin 1) j) = B1 (ix1 j)) (r : Fin n) (j : Fin 128) :
    rowFn (fun k' => A (ix2 r k')) (fun k' => B (ix2 r k')) wa wb b0 w1 b1 j = Cert.Spec.mlp A B W0 B0 W1 B1 r j := by
  unfold rowFn Cert.Spec.mlp Cert.Spec.layer1
  simp only [hwa, hwb, hb0, hw1, hb1]

variable (m : (ℓ : Loc nD τ sig) → Buf (Elt Ideal) ℓ) (ρ : Dev nD → PrngReg)

/-- The messages the first kernel leaves: the perceptron of (the take at the source index, the take at the target index). -/
theorem msg_eq (c : Dev nD) :
    (W4 m ρ c (Proc.devRef .tc main_v9) : S600000x128.Idx → EReal)
      = Cert.Spec.mlpArr (takeFill (F := Ideal) (m ((c : Thread nD τ).loc main_arg0)) (m ((c : Thread nD τ).loc main_arg1)))
          (takeFill (F := Ideal) (m ((c : Thread nD τ).loc main_arg0)) (m ((c : Thread nD τ).loc main_arg2)))
          (m ((c : Thread nD τ).loc main_arg3)) (m ((c : Thread nD τ).loc main_arg4))
          (m ((c : Thread nD τ).loc main_arg5)) (m ((c : Thread nD τ).loc main_arg6)) := by
  refine (W4_arr m ρ c 7).trans ?_
  rw [final0]
  funext i
  obtain ⟨e, j, rfl⟩ : ∃ (e : Fin 600000) (j : Fin 128), i = ix2 e j := ⟨i 0, i 1, eq_ix2 i⟩
  rw [Cert.Spec.mlpArr_apply, ← W3_v0 m ρ c, ← W3_v1 m ρ c]
  exact rowFn_eq_mlp _ _ _ _ _ _ _ _ _ _ _ (W3_v3 m ρ c) (W3_v5 m ρ c) (W3_v7 m ρ c) (W3_v6 m ρ c) (W3_v8 m ρ c) e j

/-- THE RESULT: every node's features plus the perceptron of (its aggregated messages, its features). -/
theorem result_eq (c : Dev nD) :
    (W6 m ρ c (Proc.devRef .tc main_v20) : S50000x128.Idx → EReal)
      = Cert.Spec.residArr
          (Host.scatterAdd scatter_S50000x128_S600000x1_S600000x128_1_0_0_1
            (broadcastInDim S50000x128 ![] bcast_S_S50000x128 (constant (F := Ideal) S_ .f32 0x00000000#32))
            (broadcastInDim S600000x1 ![0] bcast_S600000_S600000x1_0 (m ((c : Thread nD τ).loc main_arg2)))
            (Cert.Spec.mlpArr (takeFill (F := Ideal) (m ((c : Thread nD τ).loc main_arg0)) (m ((c : Thread nD τ).loc main_arg1)))
              (takeFill (F := Ideal) (m ((c : Thread nD τ).loc main_arg0)) (m ((c : Thread nD τ).loc main_arg2)))
              (m ((c : Thread nD τ).loc main_arg3)) (m ((c : Thread nD τ).loc main_arg4))
              (m ((c : Thread nD τ).loc main_arg5)) (m ((c : Thread nD τ).loc main_arg6))))
          (m ((c : Thread nD τ).loc main_arg0)) (m ((c : Thread nD τ).loc main_arg7)) (m ((c : Thread nD τ).loc main_arg8))
          (m ((c : Thread nD τ).loc main_arg9)) (m ((c : Thread nD τ).loc main_arg10)) := by
  refine (W6_arr m ρ c 7).trans ?_
  rw [final1]
  rw [← msg_eq m ρ c, ← W5_v12 m ρ c]
  funext i
  obtain ⟨r, j, rfl⟩ : ∃ (r : Fin 50000) (j : Fin 128), i = ix2 r j := ⟨i 0, i 1, eq_ix2 i⟩
  have hnode : Regions.nodeRows (V5 m ρ) c = m ((c : Thread nD τ).loc main_arg0) := W5_arg0 m ρ c
  show Regions.nodeRows (V5 m ρ) c (ix2 r j)
      + rowFn (fun k' => Regions.aggRows (V5 m ρ) c (ix2 r k')) (fun k' => Regions.nodeRows (V5 m ρ) c (ix2 r k'))
          (Regions.uW0a (V5 m ρ) c) (Regions.uW0b (V5 m ρ) c) (Regions.uB0 (V5 m ρ) c) (Regions.uW1 (V5 m ρ) c) (Regions.uB1 (V5 m ρ) c) j = _
  rw [rowFn_eq_mlp (Regions.aggRows (V5 m ρ) c) (Regions.nodeRows (V5 m ρ) c) (m ((c : Thread nD τ).loc main_arg7))
    (m ((c : Thread nD τ).loc main_arg8)) (m ((c : Thread nD τ).loc main_arg9)) (m ((c : Thread nD τ).loc main_arg10)) _ _ _ _ _
    (W5_v14 m ρ c) (W5_v16 m ρ c) (W5_v18 m ρ c) (W5_v17 m ρ c) (W5_v19 m ρ c) r j, hnode]
  rfl

end Cert.KernelIdeal.Result

end
-- ==== Proof.RefValue.lean ====
/-
  The reference's two perceptrons, read element by element. Each contracts a concatenated row (two rows of width 128
  joined into one of width 256) against a 256-row weight matrix in one sum, adds the bias and takes the maximum with 0,
  twice; the second one adds the node's own features at the end. Splitting the contraction over the joined axis at 128
  gives the two half-contractions of the specification.
-/
import proofs.«421214_j81492709474574_1_alg».proof.Proof.Gen.ReferenceIdeal.Read
import proofs.«421214_j81492709474574_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The edge perceptron -/

/-- The joined edge row at a column of its first half is the row gathered at the edge's source. -/
theorem cat_msg_lo (x0 : (⟨S50000x128, .f32⟩ : BufTy).Contents (Elt Ideal)) (x1 x2 : (⟨S600000, .i32⟩ : BufTy).Contents (Elt Ideal)) (r : Fin 600000) (k' : Fin 128) :
    val_main_v14 (F := Ideal) x0 x1 x2 (ix2 r (Cert.Spec.lo k')) = val_main_v6 (F := Ideal) x0 x1 (ix2 r k') := by
  unfold val_main_v14
  exact concatenate_pair_apply_left 1 _ _ concatenates_S600000x128_S600000x128_S600000x256_d1 _ rfl _ (fun b => by
    match b with
    | ⟨0, _⟩ => rfl
    | ⟨1, _⟩ => rfl)

/-- The joined edge row at a column of its second half, 128 less, is the row gathered at the edge's target. -/
theorem cat_msg_hi (x0 : (⟨S50000x128, .f32⟩ : BufTy).Contents (Elt Ideal)) (x1 x2 : (⟨S600000, .i32⟩ : BufTy).Contents (Elt Ideal)) (r : Fin 600000) (k' : Fin 128) :
    val_main_v14 (F := Ideal) x0 x1 x2 (ix2 r (Cert.Spec.hi k')) = val_main_v13 (F := Ideal) x0 x2 (ix2 r k') := by
  unfold val_main_v14
  exact concatenate_pair_apply_right 1 _ _ concatenates_S600000x128_S600000x128_S600000x256_d1 _ rfl rfl _
    (fun b hb => by
      match b with
      | ⟨0, _⟩ => rfl
      | ⟨1, _⟩ => exact absurd rfl hb)
    (by show k'.val + 128 = 128 + k'.val; omega)

/-- The first contraction reads row r of the joined row at column k … -/
theorem lidx15_eq (r : Fin 600000) (j k : Fin 256) : lidx_main_v15 (ix2 r j) k = ix2 r k := funext fun a => Fin.ext (by match a with | ⟨0, _⟩ => rfl | ⟨1, _⟩ => rfl)
/-- … against entry (k, j) of the first weight matrix. -/
theorem ridx15_eq (r : Fin 600000) (j k : Fin 256) : ridx_main_v15 (ix2 r j) k = ix2 k j := funext fun a => Fin.ext (by match a with | ⟨0, _⟩ => rfl | ⟨1, _⟩ => rfl)
/-- The first bias, broadcast along the rows, is read at the column alone. -/
theorem idx17_eq (r : Fin 600000) (k : Fin 256) : idx_main_v17 (ix2 r k) = ix2 (⟨0, Nat.one_pos⟩ : Fin 1) k := funext fun a => Fin.ext (by match a with | ⟨0, _⟩ => rfl | ⟨1, _⟩ => rfl)
theorem idx16_eq (z : Fin 1) (k : Fin 256) : idx_main_v16 (ix2 z k) = ix1 k := funext fun a => Fin.ext (by match a with | ⟨0, _⟩ => rfl)
/-- The second contraction reads row r of the hidden layer at unit k … -/
theorem lidx20_eq (r : Fin 600000) (j : Fin 128) (k : Fin 256) : lidx_main_v20 (ix2 r j) k = ix2 r k := funext fun a => Fin.ext (by match a with | ⟨0, _⟩ => rfl | ⟨1, _⟩ => rfl)
/-- … against entry (k, j) of the second weight matrix. -/
theorem ridx20_eq (r : Fin 600000) (j : Fin 128) (k : Fin 256) : ridx_main_v20 (ix2 r j) k = ix2 k j := funext fun a => Fin.ext (by match a with | ⟨0, _⟩ => rfl | ⟨1, _⟩ => rfl)
/-- The second bias, broadcast along the rows, is read at the column alone. -/
theorem idx22_eq (r : Fin 600000) (j : Fin 128) : idx_main_v22 (ix2 r j) = ix2 (⟨0, Nat.one_pos⟩ : Fin 1) j := funext fun a => Fin.ext (by match a with | ⟨0, _⟩ => rfl | ⟨1, _⟩ => rfl)
theorem idx21_eq (z : Fin 1) (j : Fin 128) : idx_main_v21 (ix2 z j) = ix1 j := funext fun a => Fin.ext (by match a with | ⟨0, _⟩ => rfl)

/-- The edge perceptron's hidden layer: one contraction of the joined row, split at 128, is the specification's two. -/
theorem hidden_msg (x0 : (⟨S50000x128, .f32⟩ : BufTy).Contents (Elt Ideal)) (x1 x2 : (⟨S600000, .i32⟩ : BufTy).Contents (Elt Ideal)) (x3 : (⟨S256x256, .f32⟩ : BufTy).Contents (Elt Ideal)) (x4 : (⟨S256, .f32⟩ : BufTy).Contents (Elt Ideal)) (r : Fin 600000) (k : Fin 256) :
    val_main_v19 (F := Ideal) x0 x1 x2 x3 x4 (ix2 r k)
      = Cert.Spec.layer1 (val_main_v6 (F := Ideal) x0 x1) (val_main_v13 (F := Ideal) x0 x2) x3 x4 r k := by
  rw [val_main_v19_apply, val_main_v18_apply, val_main_v15_apply, val_main_v17_apply, val_main_v16_apply,
    val_main_call0_v0_apply, val_main_call0_cst_apply]
  simp only [lidx15_eq, ridx15_eq, idx17_eq, idx16_eq, Ideal.maximumf_def, Ideal.addf_def, Ideal.ofBits_def,
    Ideal.ofBits_zero_f32]
  exact Cert.Spec.layer1_of_cat _ _ (val_main_v14 (F := Ideal) x0 x1 x2) x3 x4 r k
    (cat_msg_lo x0 x1 x2 r) (cat_msg_hi x0 x1 x2 r)

/-- The messages: the perceptron of (the row gathered at the edge's source, the row gathered at its target). -/
theorem ref_msg (x0 : (⟨S50000x128, .f32⟩ : BufTy).Contents (Elt Ideal)) (x1 x2 : (⟨S600000, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) :
    val_main_v24 (F := Ideal) x0 x1 x2 x3 x4 x5 x6
      = Cert.Spec.mlpArr (val_main_v6 (F := Ideal) x0 x1) (val_main_v13 (F := Ideal) x0 x2) x3 x4 x5 x6 := by
  funext i
  obtain ⟨r, j, rfl⟩ : ∃ (r : Fin 600000) (j : Fin 128), i = ix2 r j :=
    ⟨⟨(i 0).val, idx2_lt0 i⟩, ⟨(i 1).val, idx2_lt1 i⟩, eq_ix2 i⟩
  rw [Cert.Spec.mlpArr_apply, val_main_v24_apply, val_main_v23_apply, val_main_v20_apply, val_main_v22_apply,
    val_main_v21_apply, val_main_call1_v0_apply, val_main_call1_cst_apply]
  simp only [lidx20_eq, ridx20_eq, idx22_eq, idx21_eq, hidden_msg, Ideal.maximumf_def, Ideal.addf_def,
    Ideal.ofBits_def, Ideal.ofBits_zero_f32]
  rfl

/-! ## The node perceptron -/

/-- The joined node row at a column of its first half is the node's aggregated messages. -/
theorem cat_out_lo (x0 : (⟨S50000x128, .f32⟩ : BufTy).Contents (Elt Ideal)) (x1 x2 : (⟨S600000, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (r : Fin 50000) (k' : Fin 128) :
    val_main_v28 (F := Ideal) x0 x1 x2 x3 x4 x5 x6 (ix2 r (Cert.Spec.lo k'))
      = val_main_v27 (F := Ideal) x0 x1 x2 x3 x4 x5 x6 (ix2 r k') := by
  unfold val_main_v28
  exact concatenate_pair_apply_left 1 _ _ concatenates_S50000x128_S50000x128_S50000x256_d1 _ rfl _ (fun b => by
    match b with
    | ⟨0, _⟩ => rfl
    | ⟨1, _⟩ => rfl)

/-- The joined node row at a column of its second half, 128 less, is the node's own features. -/
theorem cat_out_hi (x0 : (⟨S50000x128, .f32⟩ : BufTy).Contents (Elt Ideal)) (x1 x2 : (⟨S600000, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (r : Fin 50000) (k' : Fin 128) :
    val_main_v28 (F := Ideal) x0 x1 x2 x3 x4 x5 x6 (ix2 r (Cert.Spec.hi k')) = x0 (ix2 r k') := by
  unfold val_main_v28
  exact concatenate_pair_apply_right 1 _ _ concatenates_S50000x128_S50000x128_S50000x256_d1 _ rfl rfl _
    (fun b hb => by
      match b with
      | ⟨0, _⟩ => rfl
      | ⟨1, _⟩ => exact absurd rfl hb)
    (by show k'.val + 128 = 128 + k'.val; omega)

/-- The first contraction reads row r of the joined row at column k … -/
theorem lidx29_eq (r : Fin 50000) (j k : Fin 256) : lidx_main_v29 (ix2 r j) k = ix2 r k := funext fun a => Fin.ext (by match a with | ⟨0, _⟩ => rfl | ⟨1, _⟩ => rfl)
/-- … against entry (k, j) of the first weight matrix. -/
theorem ridx29_eq (r : Fin 50000) (j k : Fin 256) : ridx_main_v29 (ix2 r j) k = ix2 k j := funext fun a => Fin.ext (by match a with | ⟨0, _⟩ => rfl | ⟨1, _⟩ => rfl)
/-- The first bias, broadcast along the rows, is read at the column alone. -/
theorem idx31_eq (r : Fin 50000) (k : Fin 256) : idx_main_v31 (ix2 r k) = ix2 (⟨0, Nat.one_pos⟩ : Fin 1) k := funext fun a => Fin.ext (by match a with | ⟨0, _⟩ => rfl | ⟨1, _⟩ => rfl)
theorem idx30_eq (z : Fin 1) (k : Fin 256) : idx_main_v30 (ix2 z k) = ix1 k := funext fun a => Fin.ext (by match a with | ⟨0, _⟩ => rfl)
/-- The second contraction reads row r of the hidden layer at unit k … -/
theorem lidx34_eq (r : Fin 50000) (j : Fin 128) (k : Fin 256) : lidx_main_v34 (ix2 r j) k = ix2 r k := funext fun a => Fin.ext (by match a with | ⟨0, _⟩ => rfl | ⟨1, _⟩ => rfl)
/-- … against entry (k, j) of the second weight matrix. -/
theorem ridx34_eq (r : Fin 50000) (j : Fin 128) (k : Fin 256) : ridx_main_v34 (ix2 r j) k = ix2 k j := funext fun a => Fin.ext (by match a with | ⟨0, _⟩ => rfl | ⟨1, _⟩ => rfl)
/-- The second bias, broadcast along the rows, is read at the column alone. -/
theorem idx36_eq (r : Fin 50000) (j : Fin 128) : idx_main_v36 (ix2 r j) = ix2 (⟨0, Nat.one_pos⟩ : Fin 1) j := funext fun a => Fin.ext (by match a with | ⟨0, _⟩ => rfl | ⟨1, _⟩ => rfl)
theorem idx35_eq (z : Fin 1) (j : Fin 128) : idx_main_v35 (ix2 z j) = ix1 j := funext fun a => Fin.ext (by match a with | ⟨0, _⟩ => rfl)

/-- The node perceptron's hidden layer: one contraction of the joined row, split at 128, is the specification's two. -/
theorem hidden_out (x0 : (⟨S50000x128, .f32⟩ : BufTy).Contents (Elt Ideal)) (x1 x2 : (⟨S600000, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S256x256, .f32⟩ : BufTy).Contents (Elt Ideal)) (x8 : (⟨S256, .f32⟩ : BufTy).Contents (Elt Ideal)) (r : Fin 50000) (k : Fin 256) :
    val_main_v33 (F := Ideal) x0 x1 x2 x3 x4 x5 x6 x7 x8 (ix2 r k)
      = Cert.Spec.layer1 (val_main_v27 (F := Ideal) x0 x1 x2 x3 x4 x5 x6) x0 x7 x8 r k := by
  rw [val_main_v33_apply, val_main_v32_apply, val_main_v29_apply, val_main_v31_apply, val_main_v30_apply,
    val_main_call2_v0_apply, val_main_call2_cst_apply]
  simp only [lidx29_eq, ridx29_eq, idx31_eq, idx30_eq, Ideal.maximumf_def, Ideal.addf_def, Ideal.ofBits_def,
    Ideal.ofBits_zero_f32]
  exact Cert.Spec.layer1_of_cat _ _ (val_main_v28 (F := Ideal) x0 x1 x2 x3 x4 x5 x6) x7 x8 r k
    (cat_out_lo x0 x1 x2 x3 x4 x5 x6 r) (cat_out_hi x0 x1 x2 x3 x4 x5 x6 r)

/-- The residual array at (row r, column j): the second operand's entry plus the perceptron's. -/
theorem residArr_apply {n : Nat} (a b : (⟨2, ![n, 128]⟩ : Shape).Idx → EReal) (W0 : (⟨2, ![256, 256]⟩ : Shape).Idx → EReal)
    (b0 : (⟨1, ![256]⟩ : Shape).Idx → EReal) (W1 : (⟨2, ![256, 128]⟩ : Shape).Idx → EReal)
    (b1 : (⟨1, ![128]⟩ : Shape).Idx → EReal) (r : Fin n) (j : Fin 128) :
    Cert.Spec.residArr a b W0 b0 W1 b1 (ix2 r j) = b (ix2 r j) + Cert.Spec.mlp a b W0 b0 W1 b1 r j := rfl

/-- The result: each node's features plus the perceptron of (its aggregated messages, its features). -/
theorem ref_out (x0 : (⟨S50000x128, .f32⟩ : BufTy).Contents (Elt Ideal)) (x1 x2 : (⟨S600000, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) :
    val_main_v39 (F := Ideal) x0 x1 x2 x3 x4 x5 x6 x7 x8 x9 x10
      = Cert.Spec.residArr (val_main_v27 (F := Ideal) x0 x1 x2 x3 x4 x5 x6) x0 x7 x8 x9 x10 := by
  funext i
  obtain ⟨r, j, rfl⟩ : ∃ (r : Fin 50000) (j : Fin 128), i = ix2 r j :=
    ⟨⟨(i 0).val, idx2_lt0 i⟩, ⟨(i 1).val, idx2_lt1 i⟩, eq_ix2 i⟩
  rw [residArr_apply, val_main_v39_apply, val_main_v38_apply, val_main_v37_apply, val_main_v34_apply,
    val_main_v36_apply, val_main_v35_apply, val_main_call3_v0_apply, val_main_call3_cst_apply]
  simp only [lidx34_eq, ridx34_eq, idx36_eq, idx35_eq, hidden_out, Ideal.maximumf_def, Ideal.addf_def,
    Ideal.ofBits_def, Ideal.ofBits_zero_f32]
  rfl

end Cert.ReferenceIdeal.RefValue

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.Bridge.lean ====
/-
  The two programs compute one function.

  Both results are "node features + perceptron of (aggregate row, feature row)", so by the perceptron's row congruence it
  is enough that the two aggregates agree entry by entry. Each aggregate entry (c, j) is 0 plus the sum of message (e, j)
  over the edges e whose target index, read signed, equals c (an edge whose target index is no row number lands nowhere).
  On such an edge the target index IS a row number, and the source index is one by the precondition, so both of the
  kernel program's takes are plain gathers there, the same gathers the reference performs; the messages then agree by the
  perceptron's row congruence again.
-/
import proofs.«421214_j81492709474574_1_alg».proof.Proof.Gen.KernelIdeal
import proofs.«421214_j81492709474574_1_alg».proof.Proof.Gen.ReferenceIdeal.Read
import proofs.«421214_j81492709474574_1_alg».proof.Proof.RefValue
import proofs.«421214_j81492709474574_1_alg».proof.Proof.KernelTake
import proofs.«421214_j81492709474574_1_alg».proof.Proof.Spec
import proofs.«421214_j81492709474574_1_alg».proof.Proof.LibGatherScatter

noncomputable section

namespace Cert.Bridge

open Idealize.ShloMosaic Idealize.ShloMosaic.ValueIdx
open Cert.KernelIdeal.Take (takeFill takeFill_of_range col)

/-- The index column reads, at (e, 0), the index vector at e. -/
theorem column_apply (v : IVec Cert.KernelIdeal.S600000 32) (e : Fin 600000) :
    broadcastInDim Cert.KernelIdeal.S600000x1 ![0] Cert.KernelIdeal.Gen.bcast_S600000_S600000x1_0 v (ix2 e (0 : Fin 1)) = v (ix1 e) := by
  unfold broadcastInDim
  refine congrArg v (funext fun a => ?_)
  have ha : a = 0 := Subsingleton.elim _ _
  subst ha
  apply Fin.ext
  split
  · next h1 => exact absurd h1 (by decide)
  · rfl

/-- The kernel program's aggregate. -/
abbrev aggK (nf : Cert.KernelIdeal.S50000x128.Idx → EReal) (src tgt : IVec Cert.KernelIdeal.S600000 32) (a3 : Cert.KernelIdeal.S256x256.Idx → EReal) (a4 : Cert.KernelIdeal.S256.Idx → EReal)
    (a5 : Cert.KernelIdeal.S256x128.Idx → EReal) (a6 : Cert.KernelIdeal.S128.Idx → EReal) : Cert.KernelIdeal.S50000x128.Idx → EReal :=
  (Host.scatterAdd Cert.KernelIdeal.scatter_S50000x128_S600000x1_S600000x128_1_0_0_1
      (broadcastInDim Cert.KernelIdeal.S50000x128 ![] Cert.KernelIdeal.Gen.bcast_S_S50000x128 (constant (F := Ideal) Cert.KernelIdeal.S_ .f32 0x00000000#32))
      (broadcastInDim Cert.KernelIdeal.S600000x1 ![0] Cert.KernelIdeal.Gen.bcast_S600000_S600000x1_0 tgt)
      (Cert.Spec.mlpArr (takeFill (F := Ideal) nf src) (takeFill (F := Ideal) nf tgt) a3 a4 a5 a6))

/-- The two aggregates agree at every entry, when every source index is a row number of the node table. -/
theorem agg_eq (nf : Cert.KernelIdeal.S50000x128.Idx → EReal) (src tgt : IVec Cert.KernelIdeal.S600000 32) (a3 : Cert.KernelIdeal.S256x256.Idx → EReal) (a4 : Cert.KernelIdeal.S256.Idx → EReal)
    (a5 : Cert.KernelIdeal.S256x128.Idx → EReal) (a6 : Cert.KernelIdeal.S128.Idx → EReal)
    (hfr : ∀ e : Fin 600000, 0 ≤ (src (ix1 e)).toInt ∧ (src (ix1 e)).toInt < 50000) (c : Fin 50000) (j : Fin 128) :
    aggK nf src tgt a3 a4 a5 a6 (ix2 c j) = Cert.ReferenceIdeal.Read.val_main_v27 (F := Ideal) nf src tgt a3 a4 a5 a6 (ix2 c j) := by
  unfold aggK Cert.ReferenceIdeal.Read.val_main_v27
  rw [Cert.ReferenceIdeal.RefValue.ref_msg]
  rw [Cert.LibGatherScatter.scatterAdd_rows Cert.KernelIdeal.scatter_S50000x128_S600000x1_S600000x128_1_0_0_1 rfl rfl rfl rfl,
    Cert.LibGatherScatter.scatterAdd_rows Cert.ReferenceIdeal.scatter_S50000x128_S600000x1_S600000x128_1_0_0_1 rfl rfl rfl rfl]
  refine congrArg₂ (· + ·) rfl (Finset.sum_congr rfl fun e he => ?_)
  have hto : (tgt (ix1 e)).toInt = (c.val : ℤ) := by
    have h := (Finset.mem_filter.1 he).2
    have h2 : Cert.ReferenceIdeal.Read.val_main_v26 (F := Ideal) tgt (ix2 e (0 : Fin 1)) = tgt (ix1 e) := column_apply tgt e
    rwa [h2] at h
  have hc : (c.val : ℤ) < 50000 := by exact_mod_cast c.isLt
  rw [Cert.Spec.mlpArr_apply, Cert.Spec.mlpArr_apply]
  refine Cert.Spec.mlp_congr_row _ _ _ _ _ _ _ _ e j (fun k' => ?_) (fun k' => ?_)
  · rw [takeFill_of_range (F := Ideal) nf src e k' (hfr e).1 (hfr e).2]; rfl
  · rw [takeFill_of_range (F := Ideal) nf tgt e k' (by omega) (by omega)]; rfl

/-- THE TWO RESULTS are one function of the arguments. -/
theorem result_eq (nf : Cert.KernelIdeal.S50000x128.Idx → EReal) (src tgt : IVec Cert.KernelIdeal.S600000 32) (a3 : Cert.KernelIdeal.S256x256.Idx → EReal) (a4 : Cert.KernelIdeal.S256.Idx → EReal)
    (a5 : Cert.KernelIdeal.S256x128.Idx → EReal) (a6 : Cert.KernelIdeal.S128.Idx → EReal) (a7 : Cert.KernelIdeal.S256x256.Idx → EReal) (a8 : Cert.KernelIdeal.S256.Idx → EReal)
    (a9 : Cert.KernelIdeal.S256x128.Idx → EReal) (a10 : Cert.KernelIdeal.S128.Idx → EReal)
    (hfr : ∀ e : Fin 600000, 0 ≤ (src (ix1 e)).toInt ∧ (src (ix1 e)).toInt < 50000) :
    Cert.ReferenceIdeal.Read.val_main_v39 (F := Ideal) nf src tgt a3 a4 a5 a6 a7 a8 a9 a10
      = Cert.Spec.residArr (aggK nf src tgt a3 a4 a5 a6) nf a7 a8 a9 a10 := by
  rw [Cert.ReferenceIdeal.RefValue.ref_out]
  funext i
  obtain ⟨r, j, rfl⟩ : ∃ (r : Fin 50000) (j : Fin 128), i = ix2 r j := ⟨i 0, i 1, eq_ix2 i⟩
  unfold Cert.Spec.residArr
  rw [Cert.Spec.mlpArr_apply, Cert.Spec.mlpArr_apply]
  refine congrArg _ (Cert.Spec.mlp_congr_row _ _ _ _ _ _ _ _ r j (fun k' => ?_) (fun k' => rfl))
  exact (agg_eq nf src tgt a3 a4 a5 a6 hfr r k').symm

end Cert.Bridge

end
-- ==== Proof.PreDecode.lean ====
/-
  The precondition's last conjunct, decoded: the conjunction of the all-reductions being 1 makes the last of them 1, an
  all-reduction that is 1 makes every entry 1, and an entry of (from ≥ 0) ∧ (from < 50000) that is 1 says the signed
  value of that index is a row number of the node table.
-/
import proofs.«421214_j81492709474574_1_alg».proof.Pre_finite_inputs
import proofs.«421214_j81492709474574_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Cert.Pre_finite_inputs Cert.Pre_finite_inputs.Gen Idealize.ShloMosaic Idealize.ShloMosaic.ValueIdx

/-- Under the precondition every source index is a row number of the node table. -/
theorem from_in_range (a0 : FVec Ideal S50000x128 .f32) (a1 a2 : IVec S600000 32) (a3 : FVec Ideal S256x256 .f32)
    (a4 : FVec Ideal S256 .f32) (a5 : FVec Ideal S256x128 .f32) (a6 : FVec Ideal S128 .f32) (a7 : FVec Ideal S256x256 .f32)
    (a8 : FVec Ideal S256 .f32) (a9 : FVec Ideal S256x128 .f32) (a10 : FVec Ideal S128 .f32)
    (h : Cert.Pre_finite_inputs.fn (F := Ideal) a0 a1 a2 a3 a4 a5 a6 a7 a8 a9 a10 = fun _ => 1#1) (e : Fin 600000) :
    0 ≤ (a1 (ix1 e)).toInt ∧ (a1 (ix1 e)).toInt < 50000 := by
  -- the shape of rank zero has exactly one index, so the last all-reduction runs over every entry
  haveI : Subsingleton S_.Idx := ⟨fun a b => funext fun d => d.elim0⟩
  -- the precondition at its one index, with its chain of conjunctions in view
  have h0 := congrFun h ix0
  dsimp only [fn, fn_part1, fn_part2] at h0
  -- a conjunction that is 1 has its right conjunct 1: the all-reduction over the source indices
  obtain ⟨-, h49⟩ := IntOp.andi_eq_one.1 h0
  -- an all-reduction that is 1 met a 1 at entry e
  have h48 := Host.reduce_andi_all _ _ _ _ _ h49 (ix1 e)
  -- that entry is (from ≥ 0) ∧ (from < 50000); both comparisons are signed
  obtain ⟨hge, hlt⟩ := IntOp.andi_eq_one.1 h48
  have hge' := IntOp.cmpi_sge.1 hge
  have hlt' := IntOp.cmpi_slt.1 hlt
  -- a scalar constant broadcast to the vector reads the constant at every entry
  change (0#32).toInt ≤ _ at hge'
  change _ < (50000#32).toInt at hlt'
  have z : (0#32).toInt = 0 := by decide
  have f : (50000#32).toInt = 50000 := by decide
  rw [z] at hge'
  rw [f] at hlt'
  exact ⟨hge', hlt'⟩

end Cert.PreDecode

end
-- ==== Proof.lean ====
/-
  One message-passing step of a graph network, kernel against reference, over the extended reals.

  Both programs gather the feature rows at each edge's source and target, apply a two-layer perceptron with a ReLU after
  each layer, sum the messages onto the target nodes, apply a second such perceptron to (aggregate, features) and add the
  features back. The kernel program splits each 256-long contraction of a concatenated row into two 128-long ones
  against the two halves of the weight matrix (equal, because a finite sum of extended reals may be regrouped), changes
  float formats (the identity over the extended reals) and runs the two perceptrons as tiled kernels over row blocks.
  Its two takes fill a row whose index is not a row number of the node table with a constant, where the reference's plain
  gather clamps: under the precondition every source index is a row number, and an edge whose target index is not one
  contributes to no node's sum in either program, so the results agree.

  The three frames are the generated ones (the reference's through its generated run); the idealization rewrote nothing.
-/
import proofs.«421214_j81492709474574_1_alg».proof.Defs
import proofs.«421214_j81492709474574_1_alg».proof.Proof.Gen.Kernel
import proofs.«421214_j81492709474574_1_alg».proof.Proof.Gen.Kernel.Skeleton
import proofs.«421214_j81492709474574_1_alg».proof.Proof.Gen.Kernel.Launch
import proofs.«421214_j81492709474574_1_alg».proof.Proof.Gen.Kernel.Points
import proofs.«421214_j81492709474574_1_alg».proof.Proof.Gen.Kernel.Frame
import proofs.«421214_j81492709474574_1_alg».proof.Proof.Gen.KernelIdeal
import proofs.«421214_j81492709474574_1_alg».proof.Proof.Gen.KernelIdeal.Skeleton
import proofs.«421214_j81492709474574_1_alg».proof.Proof.Gen.KernelIdeal.Launch
import proofs.«421214_j81492709474574_1_alg».proof.Proof.Gen.KernelIdeal.Points
import proofs.«421214_j81492709474574_1_alg».proof.Proof.Gen.KernelIdeal.Frame
import proofs.«421214_j81492709474574_1_alg».proof.Proof.Gen.ReferenceIdeal
import proofs.«421214_j81492709474574_1_alg».proof.Proof.Gen.ReferenceIdeal.Run
import proofs.«421214_j81492709474574_1_alg».proof.Proof.Gen.ReferenceIdeal.Read
import proofs.«421214_j81492709474574_1_alg».proof.Proof.Gen.Pre_finite_inputs
import proofs.«421214_j81492709474574_1_alg».proof.Proof.KernelIdealRun
import proofs.«421214_j81492709474574_1_alg».proof.Proof.KernelValue
import proofs.«421214_j81492709474574_1_alg».proof.Proof.Bridge
import proofs.«421214_j81492709474574_1_alg».proof.Proof.PreDecode
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at one function of the arguments: node features plus the perceptron of
    (messages summed onto the node, features). -/
theorem algebraic : Cert.algebraic_KernelIdeal_ReferenceIdeal := by
  intro m ρ m' ρ' hpre hagree
  have hsrc : ∀ (c : Dev Cert.KernelIdeal.nD) (e : Fin 600000),
      0 ≤ ((m ((c.tc : Thread Cert.KernelIdeal.nD Cert.KernelIdeal.τ).loc Cert.KernelIdeal.main_arg1)) (ix1 e)).toInt ∧ ((m ((c.tc : Thread Cert.KernelIdeal.nD Cert.KernelIdeal.τ).loc Cert.KernelIdeal.main_arg1)) (ix1 e)).toInt < 50000 :=
    fun c e => Cert.PreDecode.from_in_range _ _ _ _ _ _ _ _ _ _ _ (hpre c) e
  refine ⟨fun c => Cert.Spec.residArr
      (Cert.Bridge.aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.result_eq m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v39_eq, e0, e1, e2, e3, e4, e5, e6, e7, e8, e9, e10]
    exact Cert.Bridge.result_eq _ _ _ _ _ _ _ _ _ _ _ (hsrc c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
